-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S1600000 32) (main_arg8 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S128x384 : Shape := ⟨2, ![128, 384]⟩
abbrev S384 : Shape := ⟨1, ![384]⟩
abbrev S1x384 : Shape := ⟨2, ![1, 384]⟩
abbrev S50000x384 : Shape := ⟨2, ![50000, 384]⟩
abbrev S2000x128 : Shape := ⟨2, ![2000, 128]⟩
abbrev S2000x384 : Shape := ⟨2, ![2000, 384]⟩
abbrev S50000x8x16 : Shape := ⟨3, ![50000, 8, 16]⟩
abbrev S1600000x8x16 : Shape := ⟨3, ![1600000, 8, 16]⟩
abbrev S1600000x8 : Shape := ⟨2, ![1600000, 8]⟩
abbrev S1000x8x16 : Shape := ⟨3, ![1000, 8, 16]⟩
abbrev S1000x8 : Shape := ⟨2, ![1000, 8]⟩
abbrev S1000x8x1 : Shape := ⟨3, ![1000, 8, 1]⟩
abbrev S50000x8 : Shape := ⟨2, ![50000, 8]⟩
abbrev S200x8x16 : Shape := ⟨3, ![200, 8, 16]⟩
abbrev S200x8 : Shape := ⟨2, ![200, 8]⟩
abbrev S200x8x1 : Shape := ⟨3, ![200, 8, 1]⟩

abbrev nBuf : Space → Nat
  | .hbm => 96
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S128x384, .f32⟩
  | .hbm, ⟨49, _⟩ => ⟨S384, .f32⟩
  | .hbm, ⟨50, _⟩ => ⟨S1x384, .f32⟩
  | .hbm, ⟨51, _⟩ => ⟨S50000x384, .f32⟩
  | .hbm, ⟨52, _⟩ => ⟨S50000x128, .f32⟩
  | .hbm, ⟨53, _⟩ => ⟨S50000x8x16, .f32⟩
  | .hbm, ⟨54, _⟩ => ⟨S50000x128, .f32⟩
  | .hbm, ⟨55, _⟩ => ⟨S50000x8x16, .f32⟩
  | .hbm, ⟨56, _⟩ => ⟨S50000x128, .f32⟩
  | .hbm, ⟨57, _⟩ => ⟨S50000x8x16, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x8x16, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x8x16, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x8x16, .f32⟩
  | .hbm, ⟨85, _⟩ => ⟨S1600000x8, .f32⟩
  | .hbm, ⟨86, _⟩ => ⟨S1600000x8x16, .f32⟩
  | .hbm, ⟨87, _⟩ => ⟨S_, .f32⟩
  | .hbm, ⟨88, _⟩ => ⟨S50000x8x16, .f32⟩
  | .hbm, ⟨89, _⟩ => ⟨S1600000x1, .i32⟩
  | .hbm, ⟨90, _⟩ => ⟨S50000x8x16, .f32⟩
  | .hbm, ⟨91, _⟩ => ⟨S_, .f32⟩
  | .hbm, ⟨92, _⟩ => ⟨S50000x8, .f32⟩
  | .hbm, ⟨93, _⟩ => ⟨S1600000x1, .i32⟩
  | .hbm, ⟨94, _⟩ => ⟨S50000x8, .f32⟩
  | .hbm, ⟨95, _⟩ => ⟨S50000x8x16, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S1x384, .f32⟩
  | .local _ .vmem, ⟨4, _⟩ => ⟨S2000x384, .f32⟩
  | .local _ .vmem, ⟨5, _⟩ => ⟨S2000x384, .f32⟩
  | .local _ .vmem, ⟨6, _⟩ => ⟨S1000x8x16, .f32⟩
  | .local _ .vmem, ⟨7, _⟩ => ⟨S1000x8x16, .f32⟩
  | .local _ .vmem, ⟨8, _⟩ => ⟨S1000x8x16, .f32⟩
  | .local _ .vmem, ⟨9, _⟩ => ⟨S1000x8x16, .f32⟩
  | .local _ .vmem, ⟨10, _⟩ => ⟨S1000x8x16, .f32⟩
  | .local _ .vmem, ⟨11, _⟩ => ⟨S1000x8x16, .f32⟩
  | .local _ .vmem, ⟨12, _⟩ => ⟨S1000x8, .f32⟩
  | .local _ .vmem, ⟨13, _⟩ => ⟨S1000x8, .f32⟩
  | .local _ .vmem, ⟨14, _⟩ => ⟨S1000x8x16, .f32⟩
  | .local _ .vmem, ⟨15, _⟩ => ⟨S1000x8x16, .f32⟩
  | .local _ .vmem, ⟨16, _⟩ => ⟨S200x8x16, .f32⟩
  | .local _ .vmem, ⟨17, _⟩ => ⟨S200x8x16, .f32⟩
  | .local _ .vmem, ⟨18, _⟩ => ⟨S200x8, .f32⟩
  | .local _ .vmem, ⟨19, _⟩ => ⟨S200x8, .f32⟩
  | .local _ .vmem, ⟨20, _⟩ => ⟨S200x8x16, .f32⟩
  | .local _ .vmem, ⟨21, _⟩ => ⟨S200x8x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58_0 : Ref sig .tc := ⟨.hbm, 85, rfl⟩
abbrev main_v58_1 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1600], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x8x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x8x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x8x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x8x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![250], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S200x8x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S200x8x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  slices_S50000x384_S50000x128_0_0 : S50000x384.Slices ![0, 0] S50000x128
  shapeCasts_S50000x128_S50000x8x16 : S50000x128.ShapeCasts S50000x8x16
  slices_S50000x384_S50000x128_0_128 : S50000x384.Slices ![0, 128] S50000x128
  slices_S50000x384_S50000x128_0_256 : S50000x384.Slices ![0, 256] S50000x128
  inb_S1000x8x16_S1000x8x16_0_0_0 : ∀ a, (![0, 0, 0] : Fin 3 → Nat) a + S1000x8x16.size a ≤ S1000x8x16.size a
  h_S1000x8x16 : 0 < S1000x8x16.numel
  shapeCasts_S1000x8x16_S1000x8x16 : S1000x8x16.ShapeCasts S1000x8x16
  reduces_S1000x8x16_S1000x8 : S1000x8x16.Reduces [2] S1000x8
  inb_S1000x8_S1000x8_0_0 : ∀ a, (![0, 0] : Fin 2 → Nat) a + S1000x8.size a ≤ S1000x8.size a
  h_S1000x8 : 0 < S1000x8.numel
  shapeCasts_S1000x8_S1000x8x1 : S1000x8.ShapeCasts S1000x8x1
  broadcasts_S1000x8x1_S1000x8x16 : S1000x8x1.Broadcasts S1000x8x16
  bcast_S_S50000x8x16 : S_.BroadcastsInDim S50000x8x16 (![] : Fin 0 → Fin S50000x8x16.rank)
  bcast_S_S50000x8 : S_.BroadcastsInDim S50000x8 (![] : Fin 0 → Fin S50000x8.rank)
  inb_S200x8x16_S200x8x16_0_0_0 : ∀ a, (![0, 0, 0] : Fin 3 → Nat) a + S200x8x16.size a ≤ S200x8x16.size a
  h_S200x8x16 : 0 < S200x8x16.numel
  shapeCasts_S200x8x16_S200x8x16 : S200x8x16.ShapeCasts S200x8x16
  inb_S200x8_S200x8_0_0 : ∀ a, (![0, 0] : Fin 2 → Nat) a + S200x8.size a ≤ S200x8.size a
  h_S200x8 : 0 < S200x8.numel
  shapeCasts_S200x8_S200x8 : S200x8.ShapeCasts S200x8
  shapeCasts_S200x8_S200x8x1 : S200x8.ShapeCasts S200x8x1
  broadcasts_S200x8x1_S200x8x16 : S200x8x1.Broadcasts S200x8x16
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x384_S2000x384_1_0_0_1_n_n_wf : DotDims.WF S2000x128 S128x384 S2000x384 [1] [0] [0] [1] [] []
  gather_S50000x8x16_S1600000x1_S1600000x8x16_12_0_n_n_0_1_1816_wf : GatherDims.WF S50000x8x16 S1600000x1 S1600000x8x16 [1, 2] [0] [] [0] [] 1 ![1, 8, 16]
  scatter_S50000x8x16_S1600000x1_S1600000x8x16_12_0_0_1_wf : ScatterDims.WF S50000x8x16 S1600000x1 S1600000x8x16 [1, 2] [0] [0] 1
  scatter_S50000x8_S1600000x1_S1600000x8_1_0_0_1_wf : ScatterDims.WF S50000x8 S1600000x1 S1600000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x384.size a ≤ S50000x384.size a
  hwx0_3 : ∀ i : grid0.Coords, EltTy.bits .f32 = 32 ∨ (Rect.block (s := S50000x384) S2000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x8x16.size a ≤ S1600000x8x16.size a
  hwx1_0 : ∀ i : grid1.Coords, EltTy.bits .f32 = 32 ∨ (Rect.block (s := S1600000x8x16) S1000x8x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x8x16.size a ≤ S1600000x8x16.size a
  hwx1_1 : ∀ i : grid1.Coords, EltTy.bits .f32 = 32 ∨ (Rect.block (s := S1600000x8x16) S1000x8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x8x16.size a ≤ S1600000x8x16.size a
  hwx1_2 : ∀ i : grid1.Coords, EltTy.bits .f32 = 32 ∨ (Rect.block (s := S1600000x8x16) S1000x8x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x8.size a ≤ S1600000x8.size a
  hwx1_3 : ∀ i : grid1.Coords, EltTy.bits .f32 = 32 ∨ (Rect.block (s := S1600000x8) S1000x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x8x16.size a ≤ S1600000x8x16.size a
  hwx1_4 : ∀ i : grid1.Coords, EltTy.bits .f32 = 32 ∨ (Rect.block (s := S1600000x8x16) S1000x8x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x8x16.size a ≤ S50000x8x16.size a
  hwx2_0 : ∀ i : grid2.Coords, EltTy.bits .f32 = 32 ∨ (Rect.block (s := S50000x8x16) S200x8x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x8.size a ≤ S50000x8.size a
  hwx2_1 : ∀ i : grid2.Coords, EltTy.bits .f32 = 32 ∨ (Rect.block (s := S50000x8) S200x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x8x16.size a ≤ S50000x8x16.size a
  hwx2_2 : ∀ i : grid2.Coords, EltTy.bits .f32 = 32 ∨ (Rect.block (s := S50000x8x16) S200x8x16.size (cc2_transform_2 i) (hinb2_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x8x16_S1600000x1_S1600000x8x16_12_0_n_n_0_1_1816 : GatherDims S50000x8x16 S1600000x1 S1600000x8x16 where
  offsetDims := [1, 2]
  collapsedSliceDims := [0]
  operandBatchingDims := []
  startIndicesBatchingDims := []
  startIndexMap := [0]
  indexVectorDim := 1
  sliceSizes := ![1, 8, 16]
  wf := gather_S50000x8x16_S1600000x1_S1600000x8x16_12_0_n_n_0_1_1816_wf
def scatter_S50000x8x16_S1600000x1_S1600000x8x16_12_0_0_1 : ScatterDims S50000x8x16 S1600000x1 S1600000x8x16 where
  updateWindowDims := [1, 2]
  insertedWindowDims := [0]
  scatterDimsToOperandDims := [0]
  indexVectorDim := 1
  wf := scatter_S50000x8x16_S1600000x1_S1600000x8x16_12_0_0_1_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S1000x8x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1000x8x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1000x8x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58_0) S1000x8.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v58_1) S1000x8x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v61) S200x8x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S200x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S200x8x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S50000x8x16 : Shape := ⟨3, ![50000, 8, 16]⟩
abbrev S1600000x8x16 : Shape := ⟨3, ![1600000, 8, 16]⟩
abbrev S1600000x8 : Shape := ⟨2, ![1600000, 8]⟩
abbrev S1600000x8x1 : Shape := ⟨3, ![1600000, 8, 1]⟩
abbrev S50000x8 : Shape := ⟨2, ![50000, 8]⟩
abbrev S50000x8x1 : Shape := ⟨3, ![50000, 8, 1]⟩

abbrev nBuf : Space → Nat
  | .hbm => 169
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S1600000, .i32⟩
  | 8 => ⟨S1600000, .i32⟩
  | 9 => ⟨S_, .f32⟩
  | 10 => ⟨S1600000, .f32⟩
  | 11 => ⟨S_, .f32⟩
  | 12 => ⟨S50000, .f32⟩
  | 13 => ⟨S1600000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S1600000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S50000x128, .f32⟩
  | 43 => ⟨S1600000x1, .i32⟩
  | 44 => ⟨S50000x128, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x1, .f32⟩
  | 56 => ⟨S50000x128, .f32⟩
  | 57 => ⟨S50000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S50000x128, .f32⟩
  | 69 => ⟨S1600000x1, .i32⟩
  | 70 => ⟨S50000x128, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x1, .f32⟩
  | 82 => ⟨S50000x128, .f32⟩
  | 83 => ⟨S50000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S_, .f32⟩
  | 94 => ⟨S50000x128, .f32⟩
  | 95 => ⟨S1600000x1, .i32⟩
  | 96 => ⟨S50000x128, .f32⟩
  | 97 => ⟨S50000x1, .f32⟩
  | 98 => ⟨S50000x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x8x16, .f32⟩
  | 108 => ⟨S50000x8x16, .f32⟩
  | 109 => ⟨S50000x8x16, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x8x16, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x8x16, .f32⟩
  | _ => ⟨S50000x128, .f32⟩

abbrev hbmTy0_1 (i : Nat) : BufTy := match i % 128 with
  | 0 => ⟨S1600000x8x16, .f32⟩
  | 1 => ⟨S_, .f32⟩
  | 2 => ⟨S1600000x8, .f32⟩
  | 3 => ⟨S_, .f32⟩
  | 4 => ⟨S1600000x8, .f32⟩
  | 5 => ⟨S1600000x8, .f32⟩
  | 6 => ⟨S_, .f32⟩
  | 7 => ⟨S_, .f32⟩
  | 8 => ⟨S_, .f32⟩
  | 9 => ⟨S1600000x8, .f32⟩
  | 10 => ⟨S1600000x8, .f32⟩
  | 11 => ⟨S_, .f32⟩
  | 12 => ⟨S1600000x8, .f32⟩
  | 13 => ⟨S1600000x8, .f32⟩
  | 14 => ⟨S1600000x8, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x8x16, .f32⟩
  | 24 => ⟨S1600000x8x1, .f32⟩
  | 25 => ⟨S1600000x8x16, .f32⟩
  | 26 => ⟨S1600000x8x16, .f32⟩
  | 27 => ⟨S_, .f32⟩
  | 28 => ⟨S50000x8x16, .f32⟩
  | 29 => ⟨S1600000x1, .i32⟩
  | 30 => ⟨S50000x8x16, .f32⟩
  | 31 => ⟨S_, .f32⟩
  | 32 => ⟨S50000x8, .f32⟩
  | 33 => ⟨S1600000x1, .i32⟩
  | 34 => ⟨S50000x8, .f32⟩
  | 35 => ⟨S50000x8x1, .f32⟩
  | 36 => ⟨S_, .f32⟩
  | 37 => ⟨S50000x8x1, .f32⟩
  | 38 => ⟨S50000x8x1, .f32⟩
  | 39 => ⟨S50000x8x16, .f32⟩
  | 40 => ⟨S50000x8x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call4_cst : Ref sig .tc := ⟨.hbm, 104, rfl⟩
abbrev main_call4_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_12 : Ref sig .tc := ⟨.hbm, 110, rfl⟩
abbrev main_v77 : Ref sig .tc := ⟨.hbm, 111, rfl⟩
abbrev main_v78 : Ref sig .tc := ⟨.hbm, 112, rfl⟩
abbrev main_c_13 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_14 : Ref sig .tc := ⟨.hbm, 119, rfl⟩
abbrev main_v84 : Ref sig .tc := ⟨.hbm, 120, rfl⟩
abbrev main_v85 : Ref sig .tc := ⟨.hbm, 121, rfl⟩
abbrev main_c_15 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_16 : Ref sig .tc := ⟨.hbm, 129, rfl⟩
abbrev main_v92 : Ref sig .tc := ⟨.hbm, 130, rfl⟩
abbrev main_cst_17 : Ref sig .tc := ⟨.hbm, 131, rfl⟩
abbrev main_v93 : Ref sig .tc := ⟨.hbm, 132, rfl⟩
abbrev main_v94 : Ref sig .tc := ⟨.hbm, 133, rfl⟩
abbrev main_cst_18 : Ref sig .tc := ⟨.hbm, 134, rfl⟩
abbrev main_cst_19 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_v95 : Ref sig .tc := ⟨.hbm, 141, rfl⟩
abbrev main_v96 : Ref sig .tc := ⟨.hbm, 142, rfl⟩
abbrev main_c_20 : Ref sig .tc := ⟨.hbm, 143, rfl⟩
abbrev main_v97 : Ref sig .tc := ⟨.hbm, 144, rfl⟩
abbrev main_v98 : Ref sig .tc := ⟨.hbm, 145, rfl⟩
abbrev main_c_21 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_22 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_23 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_24 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  reducesTo_S1600000x8x16_S1600000x8_d2 : S1600000x8x16.ReducesTo [2] S1600000x8
  h_S_ : 0 < S_.numel
  bcast_S_S1600000x8 : S_.BroadcastsInDim S1600000x8 (![] : Fin 0 → Fin S1600000x8.rank)
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  gather_S50000x8x16_S1600000x1_S1600000x8x16_12_0_n_n_0_1_1816_wf : GatherDims.WF S50000x8x16 S1600000x1 S1600000x8x16 [1, 2] [0] [] [0] [] 1 ![1, 8, 16]
  scatter_S50000x8x16_S1600000x1_S1600000x8x16_12_0_0_1_wf : ScatterDims.WF S50000x8x16 S1600000x1 S1600000x8x16 [1, 2] [0] [0] 1
  scatter_S50000x8_S1600000x1_S1600000x8_1_0_0_1_wf : ScatterDims.WF S50000x8 S1600000x1 S1600000x8 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x8x16_S1600000x1_S1600000x8x16_12_0_n_n_0_1_1816 : GatherDims S50000x8x16 S1600000x1 S1600000x8x16 where
  offsetDims := [1, 2]
  collapsedSliceDims := [0]
  operandBatchingDims := []
  startIndicesBatchingDims := []
  startIndexMap := [0]
  indexVectorDim := 1
  sliceSizes := ![1, 8, 16]
  wf := gather_S50000x8x16_S1600000x1_S1600000x8x16_12_0_n_n_0_1_1816_wf
def scatter_S50000x8x16_S1600000x1_S1600000x8x16_12_0_0_1 : ScatterDims S50000x8x16 S1600000x1 S1600000x8x16 where
  updateWindowDims := [1, 2]
  insertedWindowDims := [0]
  scatterDimsToOperandDims := [0]
  indexVectorDim := 1
  wf := scatter_S50000x8x16_S1600000x1_S1600000x8x16_12_0_0_1_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf

class Facts : Prop extends Facts₀ where

variable [Facts]
-- ==== Proof.KNodeProjBody.lean ====
/-
  Launch 0 of the kernel's three: the node projection. Each of the 25 grid points stages a block of 2000 rows of the
  aggregated features beside the whole 128×384 weight and the 1×384 bias, and stores relu(rows · weight + bias) into the
  matching 2000 rows of the result.
  Here: what each staged block is, what the body leaves in each output buffer (the canon of its one whole-block store
  over the payload of the loaded blocks), the body's triple, and the pipeline's proof data and body obligation over any
  contents `V` the launch may find.
-/
import proofs.«427591_j77103252898070_3_alg».proof.Proof.Gen.Kernel.Launch
import proofs.«427591_j77103252898070_3_alg».proof.Proof.Gen.Kernel.Skeleton
import proofs.«427591_j77103252898070_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows of launch 0 stage -/

/-- The block of window `w` at grid point `t`, read off the window's array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or the index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, whether the point fetched it or the index stood still. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, whether the point fetched it or the index stood still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body loads and stores through -/

abbrev rw0_2000x128 : Rect S2000x128 := Rect.unit (s := S2000x128) ![0, 0] S2000x128.size inb_S2000x128_S2000x128_0_0
abbrev rw0_128x384 : Rect S128x384 := Rect.unit (s := S128x384) ![0, 0] S128x384.size inb_S128x384_S128x384_0_0
abbrev rw0_1x384 : Rect S1x384 := Rect.unit (s := S1x384) ![0, 0] S1x384.size inb_S1x384_S1x384_0_0
abbrev rw0_2000x384 : Rect S2000x384 := Rect.unit (s := S2000x384) ![0, 0] S2000x384.size inb_S2000x384_S2000x384_0_0

/-! ## What the body leaves in each output buffer: its one whole-block store over the payload of the loaded blocks -/

def out0_3 (x0 : Vec F S2000x128 .f32) (x1 : Vec F S128x384 .f32) (x2 : Vec F S1x384 .f32) : Vec F S2000x384 .f32 :=
  View.canon [⟨rw0_2000x384, k0_pay1 (View.ld x0 rw0_2000x128) (View.ld x1 rw0_128x384) (View.ld x2 rw0_1x384)⟩]

/-- The one store is of the whole block, so it covers the buffer. -/
theorem cover0_3 (p0 : Vec F S2000x384 .f32) (y : S2000x384.Idx) :
    ∃ pc ∈ ([⟨rw0_2000x384, p0⟩] : List (View.Piece (Elt F) S2000x384 .f32)), y ∈ pc.1.set :=
  View.cover_of_tiled [⟨rw0_2000x384, p0⟩] S2000x384.size (by rfl) y

/-! ## The body's triple -/

set_option maxHeartbeats 4000000 in
/-- The body, run on whole staging buffers with the inputs at `x` and the outputs at anything, ends with the inputs as they were and each output at its canon over the payload. -/
theorem sound_kernel0 (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The arrays as the launch finds them; after the body each input's buffer still at its block, each output's at the canon over the payload of the input blocks; the rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the inputs' buffers hold their blocks, so the body's triple applies; the invariant and the dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KEdgeBody.lean ====
/-
  Launch 1 of the kernel's three: the edge scores. Each of the 1600 grid points stages 1000 edges' gathered key, query
  and value rows (8 heads of 16), and stores per edge and head the score exp(clamp(⟨k, q⟩ / 4, −10, 10)) and the value
  row scaled by it.
  Here: what each staged block is, what the body leaves in each output buffer (the canon of its one whole-block store
  over the payload of the loaded blocks), the body's triple, and the pipeline's proof data and body obligation over any
  contents `V` the launch may find.
-/
import proofs.«427591_j77103252898070_3_alg».proof.Proof.Gen.Kernel.Launch
import proofs.«427591_j77103252898070_3_alg».proof.Proof.Gen.Kernel.Skeleton
import proofs.«427591_j77103252898070_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows of launch 1 stage -/

/-- The block of window `w` at grid point `t`, read off the window's array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or the index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, whether the point fetched it or the index stood still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, whether the point fetched it or the index stood still. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body loads and stores through -/

abbrev rw1_1000x8x16 : Rect S1000x8x16 := Rect.unit (s := S1000x8x16) ![0, 0, 0] S1000x8x16.size inb_S1000x8x16_S1000x8x16_0_0_0
abbrev rw1_1000x8 : Rect S1000x8 := Rect.unit (s := S1000x8) ![0, 0] S1000x8.size inb_S1000x8_S1000x8_0_0

/-! ## What the body leaves in each output buffer: its one whole-block store over the payload of the loaded blocks -/

def out1_3 (x0 : Vec F S1000x8x16 .f32) (x1 : Vec F S1000x8x16 .f32) (x2 : Vec F S1000x8x16 .f32) : Vec F S1000x8 .f32 :=
  View.canon [⟨rw1_1000x8, k1_pay1 (View.ld x0 rw1_1000x8x16) (View.ld x1 rw1_1000x8x16)⟩]

/-- The one store is of the whole block, so it covers the buffer. -/
theorem cover1_3 (p0 : Vec F S1000x8 .f32) (y : S1000x8.Idx) :
    ∃ pc ∈ ([⟨rw1_1000x8, p0⟩] : List (View.Piece (Elt F) S1000x8 .f32)), y ∈ pc.1.set :=
  View.cover_of_tiled [⟨rw1_1000x8, p0⟩] S1000x8.size (by rfl) y

def out1_4 (x0 : Vec F S1000x8x16 .f32) (x1 : Vec F S1000x8x16 .f32) (x2 : Vec F S1000x8x16 .f32) : Vec F S1000x8x16 .f32 :=
  View.canon [⟨rw1_1000x8x16, k1_pay2 (View.ld x0 rw1_1000x8x16) (View.ld x1 rw1_1000x8x16) (View.ld x2 rw1_1000x8x16)⟩]

/-- The one store is of the whole block, so it covers the buffer. -/
theorem cover1_4 (p0 : Vec F S1000x8x16 .f32) (y : S1000x8x16.Idx) :
    ∃ pc ∈ ([⟨rw1_1000x8x16, p0⟩] : List (View.Piece (Elt F) S1000x8x16 .f32)), y ∈ pc.1.set :=
  View.cover_of_tiled [⟨rw1_1000x8x16, p0⟩] S1000x8x16.size (by rfl) y

/-! ## The body's triple -/

set_option maxHeartbeats 4000000 in
/-- The body, run on whole staging buffers with the inputs at `x` and the outputs at anything, ends with the inputs as they were and each output at its canon over the payload. -/
theorem sound_kernel1 (c : Dev nD) (E : Set ℕ) (i : grid1.Coords) (arg1 : Memref sig .tc .vmem S1000x8x16 .f32) (harg1 : arg1.IsWhole) (arg2 : Memref sig .tc .vmem S1000x8x16 .f32) (harg2 : arg2.IsWhole) (arg3 : Memref sig .tc .vmem S1000x8x16 .f32) (harg3 : arg3.IsWhole) (arg4 : Memref sig .tc .vmem S1000x8 .f32) (harg4 : arg4.IsWhole) (arg5 : Memref sig .tc .vmem S1000x8x16 .f32) (harg5 : arg5.IsWhole)
    (x0 : Vec F S1000x8x16 .f32) (x1 : Vec F S1000x8x16 .f32) (x2 : Vec F S1000x8x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__edge_kernel i arg1 harg1 arg2 harg2 arg3 harg3 arg4 harg4 arg5 harg5) K := by
  simp only [cc1__edge_kernel_eq_skeleton]; unfold cc1__edge_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The launch's proof data -/

/-- The arrays as the launch finds them; after the body each input's buffer still at its block, each output's at the canon over the payload of the input blocks; the rest untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the inputs' buffers hold their blocks, so the body's triple applies; the invariant and the dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KNormalizeBody.lean ====
/-
  Launch 2 of the kernel's three: the normalisation. Each of the 250 grid points stages 200 nodes' summed weighted values
  (8 heads of 16) and summed scores (8 heads), and stores the quotient by (score sum + 1e-6).
  Here: what each staged block is, what the body leaves in each output buffer (the canon of its one whole-block store
  over the payload of the loaded blocks), the body's triple, and the pipeline's proof data and body obligation over any
  contents `V` the launch may find.
-/
import proofs.«427591_j77103252898070_3_alg».proof.Proof.Gen.Kernel.Launch
import proofs.«427591_j77103252898070_3_alg».proof.Proof.Gen.Kernel.Skeleton
import proofs.«427591_j77103252898070_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows of launch 2 stage -/

/-- The block of window `w` at grid point `t`, read off the window's array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or the index stood still. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, whether the point fetched it or the index stood still. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The whole-block rectangles the body loads and stores through -/

abbrev rw2_200x8x16 : Rect S200x8x16 := Rect.unit (s := S200x8x16) ![0, 0, 0] S200x8x16.size inb_S200x8x16_S200x8x16_0_0_0
abbrev rw2_200x8 : Rect S200x8 := Rect.unit (s := S200x8) ![0, 0] S200x8.size inb_S200x8_S200x8_0_0

/-! ## What the body leaves in each output buffer: its one whole-block store over the payload of the loaded blocks -/

def out2_2 (x0 : Vec F S200x8x16 .f32) (x1 : Vec F S200x8 .f32) : Vec F S200x8x16 .f32 :=
  View.canon [⟨rw2_200x8x16, k2_pay1 (View.ld x0 rw2_200x8x16) (View.ld x1 rw2_200x8)⟩]

/-- The one store is of the whole block, so it covers the buffer. -/
theorem cover2_2 (p0 : Vec F S200x8x16 .f32) (y : S200x8x16.Idx) :
    ∃ pc ∈ ([⟨rw2_200x8x16, p0⟩] : List (View.Piece (Elt F) S200x8x16 .f32)), y ∈ pc.1.set :=
  View.cover_of_tiled [⟨rw2_200x8x16, p0⟩] S200x8x16.size (by rfl) y

/-! ## The body's triple -/

set_option maxHeartbeats 4000000 in
/-- The body, run on whole staging buffers with the inputs at `x` and the outputs at anything, ends with the inputs as they were and each output at its canon over the payload. -/
theorem sound_kernel2 (c : Dev nD) (E : Set ℕ) (i : grid2.Coords) (arg1 : Memref sig .tc .vmem S200x8x16 .f32) (harg1 : arg1.IsWhole) (arg2 : Memref sig .tc .vmem S200x8 .f32) (harg2 : arg2.IsWhole) (arg3 : Memref sig .tc .vmem S200x8x16 .f32) (harg3 : arg3.IsWhole)
    (x0 : Vec F S200x8x16 .f32) (x1 : Vec F S200x8 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__normalize_kernel i arg1 harg1 arg2 harg2 arg3 harg3) K := by
  simp only [cc2__normalize_kernel_eq_skeleton]; unfold cc2__normalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The launch's proof data -/

/-- The arrays as the launch finds them; after the body each input's buffer still at its block, each output's at the canon over the payload of the input blocks; the rest untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the inputs' buffers hold their blocks, so the body's triple applies; the invariant and the dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KWholeRun.lean ====
/-
  The whole run of the kernel's program: seven stretches of host operations around its three launches. The contents of
  the unscoped buffers are followed from the launch memory through every stretch (each stretch's composed function of
  what it finds) and every launch (the launch's arrays at what its write-backs leave, all else as found); each launch is
  entered with exactly those contents and left with the next. Every weakly fair execution terminates, and every
  unscoped buffer ends at the last contents so named: the arguments as launched (no stretch and no launch writes one),
  the result at what the last launch's write-backs leave.
-/
import proofs.«427591_j77103252898070_3_alg».proof.Proof.KNodeProjBody
import proofs.«427591_j77103252898070_3_alg».proof.Proof.KEdgeBody
import proofs.«427591_j77103252898070_3_alg».proof.Proof.KNormalizeBody
import proofs.«427591_j77103252898070_3_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The unscoped buffers' contents at each boundary between two items of the program -/

/-- At launch. -/
abbrev B0 : Dev nD → Valuation τ sig (Elt F) := fun c b => m (c, b)
/-- After the first stretch (the out-degree count's scatter). -/
abbrev B1 : Dev nD → Valuation τ sig (Elt F) := fun c => StableHlo.after hostOps0 (B0 m c)
/-- After the first clamp at one. -/
abbrev B2 : Dev nD → Valuation τ sig (Elt F) := fun c => StableHlo.after hostOps0_1 (B1 m c)
/-- After the in-degree count's scatter. -/
abbrev B3 : Dev nD → Valuation τ sig (Elt F) := fun c => StableHlo.after hostOps0_2 (B2 m c)
/-- After the second clamp at one. -/
abbrev B4 : Dev nD → Valuation τ sig (Elt F) := fun c => StableHlo.after hostOps0_3 (B3 m c)
/-- After the aggregation and the concatenations: what launch 0 finds. -/
abbrev B5 : Dev nD → Valuation τ sig (Elt F) := fun c => StableHlo.after hostOps0_4 (B4 m c)
abbrev E5 : (c : Dev nD) → (b : Ref sig .tc) → Buf (Elt F) ((c : Thread nD τ).loc b) := fun c b => B5 m c b
/-- After launch 0: its arrays at what its write-backs leave, every other buffer as found. -/
def B6 (c : Dev nD) : Valuation τ sig (Elt F) :=
  Pipeline.withArrays spec0 c (B5 m c) fun w => (dat0 (E5 m) c).arrAt w cfg0.N
theorem B6_arr (c : Dev nD) (w : Fin cfg0.W) :
    B6 m c (Proc.devRef .tc (Pipeline.arrRef spec0 w)) = (dat0 (E5 m) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
abbrev X6 : (c : Dev nD) → (b : Ref sig .tc) → Buf (Elt F) ((c : Thread nD τ).loc b) := fun c b => B6 m c b
theorem hF0 (c : Dev nD) (w : Fin cfg0.W) : (dat0 (E5 m) c).arrAt w cfg0.N = X6 m c (Pipeline.arrRef spec0 w) :=
  (B6_arr m c w).symm
theorem hrest0 (c : Dev nD) : ∀ b, b ∉ Finset.univ.image (Pipeline.arrRef spec0) → X6 m c b = E5 m c b :=
  fun b hb => B6_of_ne m c b fun w e => hb (Finset.mem_image.mpr ⟨w, Finset.mem_univ _, e⟩)

/-- After the slices, reshapes and gathers: what launch 1 finds. -/
abbrev B7 : Dev nD → Valuation τ sig (Elt F) := fun c => StableHlo.after hostOps1 (B6 m c)
abbrev E7 : (c : Dev nD) → (b : Ref sig .tc) → Buf (Elt F) ((c : Thread nD τ).loc b) := fun c b => B7 m c b
/-- After launch 1. -/
def B8 (c : Dev nD) : Valuation τ sig (Elt F) :=
  Pipeline.withArrays spec1 c (B7 m c) fun w => (dat1 (E7 m) c).arrAt w cfg1.N
theorem B8_arr (c : Dev nD) (w : Fin cfg1.W) :
    B8 m c (Proc.devRef .tc (Pipeline.arrRef spec1 w)) = (dat1 (E7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
abbrev X8 : (c : Dev nD) → (b : Ref sig .tc) → Buf (Elt F) ((c : Thread nD τ).loc b) := fun c b => B8 m c b
theorem hF1 (c : Dev nD) (w : Fin cfg1.W) : (dat1 (E7 m) c).arrAt w cfg1.N = X8 m c (Pipeline.arrRef spec1 w) :=
  (B8_arr m c w).symm
theorem hrest1 (c : Dev nD) : ∀ b, b ∉ Finset.univ.image (Pipeline.arrRef spec1) → X8 m c b = E7 m c b :=
  fun b hb => B8_of_ne m c b fun w e => hb (Finset.mem_image.mpr ⟨w, Finset.mem_univ _, e⟩)

/-- After the two scatter sums into the nodes: what launch 2 finds. -/
abbrev B9 : Dev nD → Valuation τ sig (Elt F) := fun c => StableHlo.after hostOps2 (B8 m c)
abbrev E9 : (c : Dev nD) → (b : Ref sig .tc) → Buf (Elt F) ((c : Thread nD τ).loc b) := fun c b => B9 m c b
/-- After launch 2: the end. -/
def B10 (c : Dev nD) : Valuation τ sig (Elt F) :=
  Pipeline.withArrays spec2 c (B9 m c) fun w => (dat2 (E9 m) c).arrAt w cfg2.N
theorem B10_arr (c : Dev nD) (w : Fin cfg2.W) :
    B10 m c (Proc.devRef .tc (Pipeline.arrRef spec2 w)) = (dat2 (E9 m) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m c (Proc.devRef .tc b) = B9 m c (Proc.devRef .tc b) := by
  unfold B10; exact Pipeline.withArrays_of_ne spec2 c _ _ b hb
abbrev X10 : (c : Dev nD) → (b : Ref sig .tc) → Buf (Elt F) ((c : Thread nD τ).loc b) := fun c b => B10 m c b
theorem hF2 (c : Dev nD) (w : Fin cfg2.W) : (dat2 (E9 m) c).arrAt w cfg2.N = X10 m c (Pipeline.arrRef spec2 w) :=
  (B10_arr m c w).symm
theorem hrest2 (c : Dev nD) : ∀ b, b ∉ Finset.univ.image (Pipeline.arrRef spec2) → X10 m c b = E9 m c b :=
  fun b hb => B10_of_ne m c b fun w e => hb (Finset.mem_image.mpr ⟨w, Finset.mem_univ _, e⟩)

/-- A buffer that no stretch writes and that is no launch's array ends as launched. -/
theorem B10_keep (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : ∀ w, Pipeline.arrRef spec0 w ≠ r) (h6 : r ∉ hostOps1_W) (h7 : ∀ w, Pipeline.arrRef spec1 w ≠ r)
    (h8 : r ∉ hostOps2_W) (h9 : ∀ w, Pipeline.arrRef spec2 w ≠ r) :
    B10 m c (Proc.devRef .tc r) = m ((c : Thread nD τ).loc r) :=
  (B10_of_ne m c r h9).trans <|
  (StableHlo.after_of_writes_sub hostOps2 _ hostOps2_writes h8).trans <|
  (B8_of_ne m c r h7).trans <|
  (StableHlo.after_of_writes_sub hostOps1 _ hostOps1_writes h6).trans <|
  (B6_of_ne m c r h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-! ## The proof data of the three launches, and what rides beside the buffers -/

abbrev noTables : (p : Fin 3) → (pcfgs (F := F) p).Adm := fun p => (cfgs p).toPCfg_adm
/-- Each launch's proof data at the contents it finds. -/
def pdats : (p : Fin 3) → (c : Dev nD) → Dat τ (Elt F) Unit ℕ (UR sig nD τ) ℕ (Pipeline.pin (pcfgs (F := F)) noTables p) c
  | ⟨0, _⟩ => fun c => dat0 (E5 m) c
  | ⟨1, _⟩ => fun c => dat1 (E7 m) c
  | ⟨2, _⟩ => fun c => dat2 (E9 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B10 m c) ∗ ∃ r, prngReg c r)

/-! ## The launches as items: entered from one boundary's contents, left at the next -/

set_option backward.isDefEq.respectTransparency.types false in
def launchItem0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E5 m c) (X6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def launchItem1 : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E7 m c) (X8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def launchItem2 : Pipeline.RegionSeg (pcfgs (F := F)) noTables (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (B9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) noTables (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m) ((pdats m 2 c).share_full fun _ => rfl)
      (E9 m c) (X10 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its ten items, and the run -/

abbrev items : List (Pipeline.Seg (pcfgs (F := F)) noTables (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .region (launchItem0 m),
    .host (hseg hostOps1 hostOps1_sub hostOps1_fresh (B6 m)),
    .region (launchItem1 m),
    .host (hseg hostOps2 hostOps2_sub hostOps2_fresh (B8 m)),
    .region (launchItem2 m) ]

set_option backward.isDefEq.respectTransparency.types false in
/-- Every weakly fair execution terminates, and every unscoped buffer ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B10 m c b) :=
  Pipeline.θ_run_regions_kit (pcfgs (F := F)) noTables (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h c => h c)

/-- The same run read at the result and at the arguments: the result ends at what the last launch's write-backs leave,
    every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v65) = (dat2 (E9 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v65 (by decide))).trans (B10_arr m c 2),
     (h c _ (mem_uc main_arg0 (by decide))).trans (B10_keep m c main_arg0 (by decide) (by decide) (by decide) (by decide) (by decide) (by decide) (by decide) (by decide) (by decide) (by decide)),
     (h c _ (mem_uc main_arg1 (by decide))).trans (B10_keep m c main_arg1 (by decide) (by decide) (by decide) (by decide) (by decide) (by decide) (by decide) (by decide) (by decide) (by decide)),
     (h c _ (mem_uc main_arg2 (by decide))).trans (B10_keep m c main_arg2 (by decide) (by decide) (by decide) (by decide) (by decide) (by decide) (by decide) (by decide) (by decide) (by decide)),
     (h c _ (mem_uc main_arg3 (by decide))).trans (B10_keep m c main_arg3 (by decide) (by decide) (by decide) (by decide) (by decide) (by decide) (by decide) (by decide) (by decide) (by decide)),
     (h c _ (mem_uc main_arg4 (by decide))).trans (B10_keep m c main_arg4 (by decide) (by decide) (by decide) (by decide) (by decide) (by decide) (by decide) (by decide) (by decide) (by decide)),
     (h c _ (mem_uc main_arg5 (by decide))).trans (B10_keep m c main_arg5 (by decide) (by decide) (by decide) (by decide) (by decide) (by decide) (by decide) (by decide) (by decide) (by decide)),
     (h c _ (mem_uc main_arg6 (by decide))).trans (B10_keep m c main_arg6 (by decide) (by decide) (by decide) (by decide) (by decide) (by decide) (by decide) (by decide) (by decide) (by decide)),
     (h c _ (mem_uc main_arg7 (by decide))).trans (B10_keep m c main_arg7 (by decide) (by decide) (by decide) (by decide) (by decide) (by decide) (by decide) (by decide) (by decide) (by decide)),
     (h c _ (mem_uc main_arg8 (by decide))).trans (B10_keep m c main_arg8 (by decide) (by decide) (by decide) (by decide) (by decide) (by decide) (by decide) (by decide) (by decide) (by decide))⟩)
    (run_all m ρ)

/-- The frame: every argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Whole

end
-- ==== Proof.NodeProjBody.lean ====
/-
  Launch 0 of the kernel's three: the node projection. Each of the 25 grid points stages a block of 2000 rows of the
  aggregated features beside the whole 128×384 weight and the 1×384 bias, and stores relu(rows · weight + bias) into the
  matching 2000 rows of the result.
  Here: what each staged block is, what the body leaves in each output buffer (the canon of its one whole-block store
  over the payload of the loaded blocks), the body's triple, and the pipeline's proof data and body obligation over any
  contents `V` the launch may find.
-/
import proofs.«427591_j77103252898070_3_alg».proof.Proof.Gen.KernelIdeal.Launch
import proofs.«427591_j77103252898070_3_alg».proof.Proof.Gen.KernelIdeal.Skeleton
import proofs.«427591_j77103252898070_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows of launch 0 stage -/

/-- The block of window `w` at grid point `t`, read off the window's array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or the index stood still. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, whether the point fetched it or the index stood still. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, whether the point fetched it or the index stood still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body loads and stores through -/

abbrev rw0_2000x128 : Rect S2000x128 := Rect.unit (s := S2000x128) ![0, 0] S2000x128.size inb_S2000x128_S2000x128_0_0
abbrev rw0_128x384 : Rect S128x384 := Rect.unit (s := S128x384) ![0, 0] S128x384.size inb_S128x384_S128x384_0_0
abbrev rw0_1x384 : Rect S1x384 := Rect.unit (s := S1x384) ![0, 0] S1x384.size inb_S1x384_S1x384_0_0
abbrev rw0_2000x384 : Rect S2000x384 := Rect.unit (s := S2000x384) ![0, 0] S2000x384.size inb_S2000x384_S2000x384_0_0

/-! ## What the body leaves in each output buffer: its one whole-block store over the payload of the loaded blocks -/

def out0_3 (x0 : Vec F S2000x128 .f32) (x1 : Vec F S128x384 .f32) (x2 : Vec F S1x384 .f32) : Vec F S2000x384 .f32 :=
  View.canon [⟨rw0_2000x384, k0_pay1 (View.ld x0 rw0_2000x128) (View.ld x1 rw0_128x384) (View.ld x2 rw0_1x384)⟩]

/-- The one store is of the whole block, so it covers the buffer. -/
theorem cover0_3 (p0 : Vec F S2000x384 .f32) (y : S2000x384.Idx) :
    ∃ pc ∈ ([⟨rw0_2000x384, p0⟩] : List (View.Piece (Elt F) S2000x384 .f32)), y ∈ pc.1.set :=
  View.cover_of_tiled [⟨rw0_2000x384, p0⟩] S2000x384.size (by rfl) y

/-! ## The body's triple -/

set_option maxHeartbeats 4000000 in
/-- The body, run on whole staging buffers with the inputs at `x` and the outputs at anything, ends with the inputs as they were and each output at its canon over the payload. -/
theorem sound_kernel0 (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The arrays as the launch finds them; after the body each input's buffer still at its block, each output's at the canon over the payload of the input blocks; the rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the inputs' buffers hold their blocks, so the body's triple applies; the invariant and the dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.EdgeBody.lean ====
/-
  Launch 1 of the kernel's three: the edge scores. Each of the 1600 grid points stages 1000 edges' gathered key, query
  and value rows (8 heads of 16), and stores per edge and head the score exp(clamp(⟨k, q⟩ / 4, −10, 10)) and the value
  row scaled by it.
  Here: what each staged block is, what the body leaves in each output buffer (the canon of its one whole-block store
  over the payload of the loaded blocks), the body's triple, and the pipeline's proof data and body obligation over any
  contents `V` the launch may find.
-/
import proofs.«427591_j77103252898070_3_alg».proof.Proof.Gen.KernelIdeal.Launch
import proofs.«427591_j77103252898070_3_alg».proof.Proof.Gen.KernelIdeal.Skeleton
import proofs.«427591_j77103252898070_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows of launch 1 stage -/

/-- The block of window `w` at grid point `t`, read off the window's array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or the index stood still. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, whether the point fetched it or the index stood still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds the window's block at every point, whether the point fetched it or the index stood still. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body loads and stores through -/

abbrev rw1_1000x8x16 : Rect S1000x8x16 := Rect.unit (s := S1000x8x16) ![0, 0, 0] S1000x8x16.size inb_S1000x8x16_S1000x8x16_0_0_0
abbrev rw1_1000x8 : Rect S1000x8 := Rect.unit (s := S1000x8) ![0, 0] S1000x8.size inb_S1000x8_S1000x8_0_0

/-! ## What the body leaves in each output buffer: its one whole-block store over the payload of the loaded blocks -/

def out1_3 (x0 : Vec F S1000x8x16 .f32) (x1 : Vec F S1000x8x16 .f32) (x2 : Vec F S1000x8x16 .f32) : Vec F S1000x8 .f32 :=
  View.canon [⟨rw1_1000x8, k1_pay1 (View.ld x0 rw1_1000x8x16) (View.ld x1 rw1_1000x8x16)⟩]

/-- The one store is of the whole block, so it covers the buffer. -/
theorem cover1_3 (p0 : Vec F S1000x8 .f32) (y : S1000x8.Idx) :
    ∃ pc ∈ ([⟨rw1_1000x8, p0⟩] : List (View.Piece (Elt F) S1000x8 .f32)), y ∈ pc.1.set :=
  View.cover_of_tiled [⟨rw1_1000x8, p0⟩] S1000x8.size (by rfl) y

def out1_4 (x0 : Vec F S1000x8x16 .f32) (x1 : Vec F S1000x8x16 .f32) (x2 : Vec F S1000x8x16 .f32) : Vec F S1000x8x16 .f32 :=
  View.canon [⟨rw1_1000x8x16, k1_pay2 (View.ld x0 rw1_1000x8x16) (View.ld x1 rw1_1000x8x16) (View.ld x2 rw1_1000x8x16)⟩]

/-- The one store is of the whole block, so it covers the buffer. -/
theorem cover1_4 (p0 : Vec F S1000x8x16 .f32) (y : S1000x8x16.Idx) :
    ∃ pc ∈ ([⟨rw1_1000x8x16, p0⟩] : List (View.Piece (Elt F) S1000x8x16 .f32)), y ∈ pc.1.set :=
  View.cover_of_tiled [⟨rw1_1000x8x16, p0⟩] S1000x8x16.size (by rfl) y

/-! ## The body's triple -/

set_option maxHeartbeats 4000000 in
/-- The body, run on whole staging buffers with the inputs at `x` and the outputs at anything, ends with the inputs as they were and each output at its canon over the payload. -/
theorem sound_kernel1 (c : Dev nD) (E : Set ℕ) (i : grid1.Coords) (arg1 : Memref sig .tc .vmem S1000x8x16 .f32) (harg1 : arg1.IsWhole) (arg2 : Memref sig .tc .vmem S1000x8x16 .f32) (harg2 : arg2.IsWhole) (arg3 : Memref sig .tc .vmem S1000x8x16 .f32) (harg3 : arg3.IsWhole) (arg4 : Memref sig .tc .vmem S1000x8 .f32) (harg4 : arg4.IsWhole) (arg5 : Memref sig .tc .vmem S1000x8x16 .f32) (harg5 : arg5.IsWhole)
    (x0 : Vec F S1000x8x16 .f32) (x1 : Vec F S1000x8x16 .f32) (x2 : Vec F S1000x8x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__edge_kernel i arg1 harg1 arg2 harg2 arg3 harg3 arg4 harg4 arg5 harg5) K := by
  simp only [cc1__edge_kernel_eq_skeleton]; unfold cc1__edge_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The launch's proof data -/

/-- The arrays as the launch finds them; after the body each input's buffer still at its block, each output's at the canon over the payload of the input blocks; the rest untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the inputs' buffers hold their blocks, so the body's triple applies; the invariant and the dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.NormalizeBody.lean ====
/-
  Launch 2 of the kernel's three: the normalisation. Each of the 250 grid points stages 200 nodes' summed weighted values
  (8 heads of 16) and summed scores (8 heads), and stores the quotient by (score sum + 1e-6).
  Here: what each staged block is, what the body leaves in each output buffer (the canon of its one whole-block store
  over the payload of the loaded blocks), the body's triple, and the pipeline's proof data and body obligation over any
  contents `V` the launch may find.
-/
import proofs.«427591_j77103252898070_3_alg».proof.Proof.Gen.KernelIdeal.Launch
import proofs.«427591_j77103252898070_3_alg».proof.Proof.Gen.KernelIdeal.Skeleton
import proofs.«427591_j77103252898070_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows of launch 2 stage -/

/-- The block of window `w` at grid point `t`, read off the window's array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or the index stood still. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, whether the point fetched it or the index stood still. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The whole-block rectangles the body loads and stores through -/

abbrev rw2_200x8x16 : Rect S200x8x16 := Rect.unit (s := S200x8x16) ![0, 0, 0] S200x8x16.size inb_S200x8x16_S200x8x16_0_0_0
abbrev rw2_200x8 : Rect S200x8 := Rect.unit (s := S200x8) ![0, 0] S200x8.size inb_S200x8_S200x8_0_0

/-! ## What the body leaves in each output buffer: its one whole-block store over the payload of the loaded blocks -/

def out2_2 (x0 : Vec F S200x8x16 .f32) (x1 : Vec F S200x8 .f32) : Vec F S200x8x16 .f32 :=
  View.canon [⟨rw2_200x8x16, k2_pay1 (View.ld x0 rw2_200x8x16) (View.ld x1 rw2_200x8)⟩]

/-- The one store is of the whole block, so it covers the buffer. -/
theorem cover2_2 (p0 : Vec F S200x8x16 .f32) (y : S200x8x16.Idx) :
    ∃ pc ∈ ([⟨rw2_200x8x16, p0⟩] : List (View.Piece (Elt F) S200x8x16 .f32)), y ∈ pc.1.set :=
  View.cover_of_tiled [⟨rw2_200x8x16, p0⟩] S200x8x16.size (by rfl) y

/-! ## The body's triple -/

set_option maxHeartbeats 4000000 in
/-- The body, run on whole staging buffers with the inputs at `x` and the outputs at anything, ends with the inputs as they were and each output at its canon over the payload. -/
theorem sound_kernel2 (c : Dev nD) (E : Set ℕ) (i : grid2.Coords) (arg1 : Memref sig .tc .vmem S200x8x16 .f32) (harg1 : arg1.IsWhole) (arg2 : Memref sig .tc .vmem S200x8 .f32) (harg2 : arg2.IsWhole) (arg3 : Memref sig .tc .vmem S200x8x16 .f32) (harg3 : arg3.IsWhole)
    (x0 : Vec F S200x8x16 .f32) (x1 : Vec F S200x8 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__normalize_kernel i arg1 harg1 arg2 harg2 arg3 harg3) K := by
  simp only [cc2__normalize_kernel_eq_skeleton]; unfold cc2__normalize_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The launch's proof data -/

/-- The arrays as the launch finds them; after the body each input's buffer still at its block, each output's at the canon over the payload of the input blocks; the rest untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the inputs' buffers hold their blocks, so the body's triple applies; the invariant and the dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.WholeRun.lean ====
/-
  The whole run of the kernel's program: seven stretches of host operations around its three launches. The contents of
  the unscoped buffers are followed from the launch memory through every stretch (each stretch's composed function of
  what it finds) and every launch (the launch's arrays at what its write-backs leave, all else as found); each launch is
  entered with exactly those contents and left with the next. Every weakly fair execution terminates, and every
  unscoped buffer ends at the last contents so named: the arguments as launched (no stretch and no launch writes one),
  the result at what the last launch's write-backs leave.
-/
import proofs.«427591_j77103252898070_3_alg».proof.Proof.NodeProjBody
import proofs.«427591_j77103252898070_3_alg».proof.Proof.EdgeBody
import proofs.«427591_j77103252898070_3_alg».proof.Proof.NormalizeBody
import proofs.«427591_j77103252898070_3_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The unscoped buffers' contents at each boundary between two items of the program -/

/-- At launch. -/
abbrev B0 : Dev nD → Valuation τ sig (Elt F) := fun c b => m (c, b)
/-- After the first stretch (the out-degree count's scatter). -/
abbrev B1 : Dev nD → Valuation τ sig (Elt F) := fun c => StableHlo.after hostOps0 (B0 m c)
/-- After the first clamp at one. -/
abbrev B2 : Dev nD → Valuation τ sig (Elt F) := fun c => StableHlo.after hostOps0_1 (B1 m c)
/-- After the in-degree count's scatter. -/
abbrev B3 : Dev nD → Valuation τ sig (Elt F) := fun c => StableHlo.after hostOps0_2 (B2 m c)
/-- After the second clamp at one. -/
abbrev B4 : Dev nD → Valuation τ sig (Elt F) := fun c => StableHlo.after hostOps0_3 (B3 m c)
/-- After the aggregation and the concatenations: what launch 0 finds. -/
abbrev B5 : Dev nD → Valuation τ sig (Elt F) := fun c => StableHlo.after hostOps0_4 (B4 m c)
abbrev E5 : (c : Dev nD) → (b : Ref sig .tc) → Buf (Elt F) ((c : Thread nD τ).loc b) := fun c b => B5 m c b
/-- After launch 0: its arrays at what its write-backs leave, every other buffer as found. -/
def B6 (c : Dev nD) : Valuation τ sig (Elt F) :=
  Pipeline.withArrays spec0 c (B5 m c) fun w => (dat0 (E5 m) c).arrAt w cfg0.N
theorem B6_arr (c : Dev nD) (w : Fin cfg0.W) :
    B6 m c (Proc.devRef .tc (Pipeline.arrRef spec0 w)) = (dat0 (E5 m) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
abbrev X6 : (c : Dev nD) → (b : Ref sig .tc) → Buf (Elt F) ((c : Thread nD τ).loc b) := fun c b => B6 m c b
theorem hF0 (c : Dev nD) (w : Fin cfg0.W) : (dat0 (E5 m) c).arrAt w cfg0.N = X6 m c (Pipeline.arrRef spec0 w) :=
  (B6_arr m c w).symm
theorem hrest0 (c : Dev nD) : ∀ b, b ∉ Finset.univ.image (Pipeline.arrRef spec0) → X6 m c b = E5 m c b :=
  fun b hb => B6_of_ne m c b fun w e => hb (Finset.mem_image.mpr ⟨w, Finset.mem_univ _, e⟩)

/-- After the slices, reshapes and gathers: what launch 1 finds. -/
abbrev B7 : Dev nD → Valuation τ sig (Elt F) := fun c => StableHlo.after hostOps1 (B6 m c)
abbrev E7 : (c : Dev nD) → (b : Ref sig .tc) → Buf (Elt F) ((c : Thread nD τ).loc b) := fun c b => B7 m c b
/-- After launch 1. -/
def B8 (c : Dev nD) : Valuation τ sig (Elt F) :=
  Pipeline.withArrays spec1 c (B7 m c) fun w => (dat1 (E7 m) c).arrAt w cfg1.N
theorem B8_arr (c : Dev nD) (w : Fin cfg1.W) :
    B8 m c (Proc.devRef .tc (Pipeline.arrRef spec1 w)) = (dat1 (E7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
abbrev X8 : (c : Dev nD) → (b : Ref sig .tc) → Buf (Elt F) ((c : Thread nD τ).loc b) := fun c b => B8 m c b
theorem hF1 (c : Dev nD) (w : Fin cfg1.W) : (dat1 (E7 m) c).arrAt w cfg1.N = X8 m c (Pipeline.arrRef spec1 w) :=
  (B8_arr m c w).symm
theorem hrest1 (c : Dev nD) : ∀ b, b ∉ Finset.univ.image (Pipeline.arrRef spec1) → X8 m c b = E7 m c b :=
  fun b hb => B8_of_ne m c b fun w e => hb (Finset.mem_image.mpr ⟨w, Finset.mem_univ _, e⟩)

/-- After the two scatter sums into the nodes: what launch 2 finds. -/
abbrev B9 : Dev nD → Valuation τ sig (Elt F) := fun c => StableHlo.after hostOps2 (B8 m c)
abbrev E9 : (c : Dev nD) → (b : Ref sig .tc) → Buf (Elt F) ((c : Thread nD τ).loc b) := fun c b => B9 m c b
/-- After launch 2: the end. -/
def B10 (c : Dev nD) : Valuation τ sig (Elt F) :=
  Pipeline.withArrays spec2 c (B9 m c) fun w => (dat2 (E9 m) c).arrAt w cfg2.N
theorem B10_arr (c : Dev nD) (w : Fin cfg2.W) :
    B10 m c (Proc.devRef .tc (Pipeline.arrRef spec2 w)) = (dat2 (E9 m) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m c (Proc.devRef .tc b) = B9 m c (Proc.devRef .tc b) := by
  unfold B10; exact Pipeline.withArrays_of_ne spec2 c _ _ b hb
abbrev X10 : (c : Dev nD) → (b : Ref sig .tc) → Buf (Elt F) ((c : Thread nD τ).loc b) := fun c b => B10 m c b
theorem hF2 (c : Dev nD) (w : Fin cfg2.W) : (dat2 (E9 m) c).arrAt w cfg2.N = X10 m c (Pipeline.arrRef spec2 w) :=
  (B10_arr m c w).symm
theorem hrest2 (c : Dev nD) : ∀ b, b ∉ Finset.univ.image (Pipeline.arrRef spec2) → X10 m c b = E9 m c b :=
  fun b hb => B10_of_ne m c b fun w e => hb (Finset.mem_image.mpr ⟨w, Finset.mem_univ _, e⟩)

/-- A buffer that no stretch writes and that is no launch's array ends as launched. -/
theorem B10_keep (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : ∀ w, Pipeline.arrRef spec0 w ≠ r) (h6 : r ∉ hostOps1_W) (h7 : ∀ w, Pipeline.arrRef spec1 w ≠ r)
    (h8 : r ∉ hostOps2_W) (h9 : ∀ w, Pipeline.arrRef spec2 w ≠ r) :
    B10 m c (Proc.devRef .tc r) = m ((c : Thread nD τ).loc r) :=
  (B10_of_ne m c r h9).trans <|
  (StableHlo.after_of_writes_sub hostOps2 _ hostOps2_writes h8).trans <|
  (B8_of_ne m c r h7).trans <|
  (StableHlo.after_of_writes_sub hostOps1 _ hostOps1_writes h6).trans <|
  (B6_of_ne m c r h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-! ## The proof data of the three launches, and what rides beside the buffers -/

abbrev noTables : (p : Fin 3) → (pcfgs (F := F) p).Adm := fun p => (cfgs p).toPCfg_adm
/-- Each launch's proof data at the contents it finds. -/
def pdats : (p : Fin 3) → (c : Dev nD) → Dat τ (Elt F) Unit ℕ (UR sig nD τ) ℕ (Pipeline.pin (pcfgs (F := F)) noTables p) c
  | ⟨0, _⟩ => fun c => dat0 (E5 m) c
  | ⟨1, _⟩ => fun c => dat1 (E7 m) c
  | ⟨2, _⟩ => fun c => dat2 (E9 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B10 m c) ∗ ∃ r, prngReg c r)

/-! ## The launches as items: entered from one boundary's contents, left at the next -/

set_option backward.isDefEq.respectTransparency.types false in
def launchItem0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E5 m c) (X6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def launchItem1 : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E7 m c) (X8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def launchItem2 : Pipeline.RegionSeg (pcfgs (F := F)) noTables (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (B9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) noTables (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m) ((pdats m 2 c).share_full fun _ => rfl)
      (E9 m c) (X10 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its ten items, and the run -/

abbrev items : List (Pipeline.Seg (pcfgs (F := F)) noTables (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .region (launchItem0 m),
    .host (hseg hostOps1 hostOps1_sub hostOps1_fresh (B6 m)),
    .region (launchItem1 m),
    .host (hseg hostOps2 hostOps2_sub hostOps2_fresh (B8 m)),
    .region (launchItem2 m) ]

set_option backward.isDefEq.respectTransparency.types false in
/-- Every weakly fair execution terminates, and every unscoped buffer ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B10 m c b) :=
  Pipeline.θ_run_regions_kit (pcfgs (F := F)) noTables (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h c => h c)

/-- The same run read at the result and at the arguments: the result ends at what the last launch's write-backs leave,
    every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v65) = (dat2 (E9 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v65 (by decide))).trans (B10_arr m c 2),
     (h c _ (mem_uc main_arg0 (by decide))).trans (B10_keep m c main_arg0 (by decide) (by decide) (by decide) (by decide) (by decide) (by decide) (by decide) (by decide) (by decide) (by decide)),
     (h c _ (mem_uc main_arg1 (by decide))).trans (B10_keep m c main_arg1 (by decide) (by decide) (by decide) (by decide) (by decide) (by decide) (by decide) (by decide) (by decide) (by decide)),
     (h c _ (mem_uc main_arg2 (by decide))).trans (B10_keep m c main_arg2 (by decide) (by decide) (by decide) (by decide) (by decide) (by decide) (by decide) (by decide) (by decide) (by decide)),
     (h c _ (mem_uc main_arg3 (by decide))).trans (B10_keep m c main_arg3 (by decide) (by decide) (by decide) (by decide) (by decide) (by decide) (by decide) (by decide) (by decide) (by decide)),
     (h c _ (mem_uc main_arg4 (by decide))).trans (B10_keep m c main_arg4 (by decide) (by decide) (by decide) (by decide) (by decide) (by decide) (by decide) (by decide) (by decide) (by decide)),
     (h c _ (mem_uc main_arg5 (by decide))).trans (B10_keep m c main_arg5 (by decide) (by decide) (by decide) (by decide) (by decide) (by decide) (by decide) (by decide) (by decide) (by decide)),
     (h c _ (mem_uc main_arg6 (by decide))).trans (B10_keep m c main_arg6 (by decide) (by decide) (by decide) (by decide) (by decide) (by decide) (by decide) (by decide) (by decide) (by decide)),
     (h c _ (mem_uc main_arg7 (by decide))).trans (B10_keep m c main_arg7 (by decide) (by decide) (by decide) (by decide) (by decide) (by decide) (by decide) (by decide) (by decide) (by decide)),
     (h c _ (mem_uc main_arg8 (by decide))).trans (B10_keep m c main_arg8 (by decide) (by decide) (by decide) (by decide) (by decide) (by decide) (by decide) (by decide) (by decide) (by decide))⟩)
    (run_all m ρ)

/-- The frame: every argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Whole

end
-- ==== Proof.LibNary3.lean ====
/-
  A result lemma for an operation over a literal family of THREE references (a three-operand concatenation), in the
  shape of the library's lemma for four references: the operation's result is its function applied to the three
  operands' contents, each read at its own reference. The three contents are kept as separate arguments of a small
  definition, at their own references' types, so that a simplification pass can go on rewriting them; unfolding the
  definition afterwards puts them back into the family the function expects.
-/
import Idealize.ShloMosaic.Lib.StableHlo.Run

noncomputable section

namespace Idealize.ShloMosaic.StableHlo

section Nary3

variable {nD : Nat} {τ : Topo} {sig : RefSig} {Val : EltTy → Type}
variable {x a b y : Ref sig .tc}

/-- A function of a three-entry family of contents, applied to the three entries given one by one, each at its own
    reference's type. -/
def nary3Apply
    (f : ((k : Fin 3) → ((![x, a, b] : Fin 3 → Ref sig .tc) k).ty.Contents Val) → y.ty.Contents Val)
    (A : BufTy.Contents Val (Proc.devRef (τ := τ) .tc x).ty) (B : BufTy.Contents Val (Proc.devRef (τ := τ) .tc a).ty)
    (C : BufTy.Contents Val (Proc.devRef (τ := τ) .tc b).ty) : y.ty.Contents Val :=
  f (Fin.cons A (Fin.cons B (Fin.cons C (fun i => i.elim0))))

/-- An operation over a LITERAL family of three references (a three-operand concatenation): its result is its function
    applied to the three operands' contents, each read AT ITS OWN REFERENCE, so that those contents can be rewritten further. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = nary3Apply (τ := τ) f (F (Proc.devRef .tc x)) (F (Proc.devRef .tc a)) (F (Proc.devRef .tc b)) := by
  rw [nary_result]; unfold nary3Apply; congr 1; funext k; fin_cases k <;> rfl

/-- The same, with the result reference un-indexed, for one `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = nary3Apply (τ := τ) f (F (Proc.devRef .tc x)) (F (Proc.devRef .tc a)) (F (Proc.devRef .tc b)) :=
  nary3_result f hxs hy F

end Nary3

/-- The results by one `simp` pass, with the three-reference lemma in place of the general one. -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.Formulas.lean ====
/-
  The four functions the kernel's three launches compute, each stated once over whole arrays, index by index, on the
  extended reals: a node's projection relu(row · weight + bias); an edge's score per head,
  exp(min 10 (max (−10) (⟨k, q⟩ / 4))); the edge's value row scaled by its score; and a node's summed weighted
  values divided by (summed score + 1e-6). The literals stay as the words both programs print, so that no literal is
  ever evaluated.
-/
import proofs.«427591_j77103252898070_3_alg».proof.KernelIdeal
import Idealize.ShloMosaic.Lib.ValueIdx
import Idealize.ShloMosaic.PureOps.Ideal

noncomputable section

namespace Cert.KernelIdeal.Formulas

open Idealize.ShloMosaic Idealize.ShloMosaic.ValueIdx Cert.KernelIdeal

/-- relu(row · weight + bias): entry (n, j) is max (∑ₖ a[n,k] · w[k,j] + b[0,j]) 0. -/
def projected (a : FVec Ideal S50000x128 .f32) (w : FVec Ideal S128x384 .f32) (b : FVec Ideal S1x384 .f32) : FVec Ideal S50000x384 .f32 :=
  fun i => max ((∑ k : Fin 128, a (ix2 (i 0) k) * w (ix2 k (i 1))) + b (ix2 (0 : Fin 1) (i 1))) (Ideal.ofBits .f32 0x00000000#32)

/-- The same projection for one of the three weights by itself: entry (n, j) is max (∑ₖ a[n,k] · w[k,j] + b[j]) 0. -/
def projectedBy (a : FVec Ideal S50000x128 .f32) (w : FVec Ideal S128x128 .f32) (b : FVec Ideal S128 .f32) : FVec Ideal S50000x128 .f32 :=
  fun i => max ((∑ k : Fin 128, a (ix2 (i 0) k) * w (ix2 k (i 1))) + b (ix1 (i 1))) (Ideal.ofBits .f32 0x00000000#32)

/-- The score of edge e at head h: exp (min 10 (max (−10) ((∑_d k[e,h,d] · q[e,h,d]) / 4))). -/
def score (k q : FVec Ideal S1600000x8x16 .f32) : FVec Ideal S1600000x8 .f32 :=
  fun i => Ideal.exp (min (Ideal.ofBits .f32 0x41200000#32) (max (Ideal.ofBits .f32 0xC1200000#32)
    (Ideal.div (∑ d : Fin 16, k (ix3 (i 0) (i 1) d) * q (ix3 (i 0) (i 1) d)) (Ideal.ofBits .f32 0x40800000#32))))

/-- The value row of edge e at head h scaled by the edge's score there. -/
def weighted (k q v : FVec Ideal S1600000x8x16 .f32) : FVec Ideal S1600000x8x16 .f32 :=
  fun i => v i * score k q (ix2 (i 0) (i 1))

/-- A node's summed weighted values over its summed scores plus the literal 1e-6. -/
def normalized (wv : FVec Ideal S50000x8x16 .f32) (z : FVec Ideal S50000x8 .f32) : FVec Ideal S50000x8x16 .f32 :=
  fun i => Ideal.div (wv i) (z (ix2 (i 0) (i 1)) + Ideal.ofBits .f32 0x358637BD#32)

end Cert.KernelIdeal.Formulas

end
-- ==== Proof.NodeProjValue.lean ====
import proofs.«427591_j77103252898070_3_alg».proof.Proof.Formulas
import proofs.«427591_j77103252898070_3_alg».proof.Proof.NodeProjBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Values
open Cert.KernelIdeal Cert.KernelIdeal.Gen Idealize.ShloMosaic Idealize.ShloMosaic.TcCoe Idealize.ShloMosaic.ValueIdx Idealize.SL.Sem
open Idealize.ShloMosaic.Pipeline (Dat)

/-! Launch 0's value: what one stored block holds at a row and a column, then the 25 row blocks read as one array. -/
namespace NodeProj

/-! ## The contraction's operand indices, axis by axis -/

theorem lhs_rows (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_contr (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_contr (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_cols (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- The block product into the zero accumulator, at row p and column q: the sum over the 128 shared coordinates. -/
theorem blockProduct_apply (a : FVec Ideal S2000x128 .bf16) (w : FVec Ideal S128x384 .bf16) (p : Fin 2000) (q : Fin 384) :
    matmul dot_S2000x128_S128x384_S2000x384_1_0_0_1_n_n none a w (constant (F := Ideal) S2000x384 .f32 0x00000000#32) (ix2 p q)
      = ∑ k : Fin 128, a (ix2 p k) * w (ix2 k q) := by
  show FloatOps.matmul dot_S2000x128_S128x384_S2000x384_1_0_0_1_n_n none a w (constant (F := Ideal) S2000x384 .f32 0x00000000#32) (ix2 p q) = _
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p q) ((ValueIdx.contrEquiv1 dot_S2000x128_S128x384_S2000x384_1_0_0_1_n_n 128 rfl rfl).symm k) = ix2 p k := funext fun a => Fin.ext (by
    match a with
    | ⟨0, _⟩ => exact lhs_rows _ _
    | ⟨1, _⟩ => exact (lhs_contr _ _).trans hk)
  have er : dot_S2000x128_S128x384_S2000x384_1_0_0_1_n_n.rhsIdx (ix2 p q) ((ValueIdx.contrEquiv1 dot_S2000x128_S128x384_S2000x384_1_0_0_1_n_n 128 rfl rfl).symm k) = ix2 k q := funext fun a => Fin.ext (by
    match a with
    | ⟨0, _⟩ => exact (rhs_contr _ _).trans hk
    | ⟨1, _⟩ => exact rhs_cols _ _)
  rw [el, er]

/-- The bias row spread over the block's rows, at row p and column q: the bias at column q. -/
theorem biasRows_apply (b : Vec Ideal S1x384 .f32) (p : Fin 2000) (q : Fin 384) :
    broadcastTo S2000x384 b broadcasts_S1x384_S2000x384 (ix2 p q) = b (ix2 (0 : Fin 1) q) := by
  refine broadcastTo_apply b broadcasts_S1x384_S2000x384 (ix2 p q) (ix2 (0 : Fin 1) q) fun a => ?_
  match a with
  | ⟨0, _⟩ => rfl
  | ⟨1, _⟩ => rfl

/-- What the body stores, at row p and column q of a block: relu of the row's product with the weight's column plus the bias. -/
theorem payload_apply (x0 : Vec Ideal S2000x128 .f32) (x1 : Vec Ideal S128x384 .f32) (x2 : Vec Ideal S1x384 .f32) (p : Fin 2000) (q : Fin 384) :
    k0_pay1 (F := Ideal) x0 x1 x2 (ix2 p q)
      = max ((∑ k : Fin 128, x0 (ix2 p k) * x1 (ix2 k q)) + x2 (ix2 (0 : Fin 1) q)) (Ideal.ofBits .f32 0x00000000#32) := by
  unfold k0_pay1
  simp only [shapeCast_self]
  rw [maximumf_apply, addf_apply, broadcast_apply, blockProduct_apply, biasRows_apply]
  rfl

/-! ## From a block's stored values to the whole array's formula -/

/-- A stored block entry is the projection formula at an array index, once the three loaded blocks read the arrays at the
    rows and columns that index names. -/
theorem storedBlock_apply (a : FVec Ideal S50000x128 .f32) (w : FVec Ideal S128x384 .f32) (b : FVec Ideal S1x384 .f32)
    (x0 : Vec Ideal S2000x128 .f32) (x1 : Vec Ideal S128x384 .f32) (x2 : Vec Ideal S1x384 .f32)
    (p : Fin 2000) (q : Fin 384) (i : S50000x384.Idx)
    (h0 : ∀ k : Fin 128, x0 (ix2 p k) = a (ix2 (i 0) k))
    (h1 : ∀ k : Fin 128, x1 (ix2 k q) = w (ix2 k (i 1)))
    (h2 : x2 (ix2 (0 : Fin 1) q) = b (ix2 (0 : Fin 1) (i 1))) :
    k0_pay1 (F := Ideal) x0 x1 x2 (ix2 p q) = Formulas.projected a w b i := by
  rw [payload_apply]
  unfold Formulas.projected
  simp only [h0, h1, h2]

theorem zeroOffsets : (![0, 0] : Fin 2 → Nat) = fun _ => 0 := funext fun a => by fin_cases a <;> rfl

/-- The block-index maps over the 25 grid points: the feature block moves with the result block along the rows,
    the weight and the bias stand still at block (0, 0), and the result's row block is the point's own number. -/
theorem blockIndex_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_3.index t (0 : Fin 2) = t.val :=
  (by decide +kernel : ∀ t : Fin grid0.N, _)

section Blocks

variable (V : (c : Dev nD) → (b : Ref sig .tc) → Buf (Elt Ideal) ((c : Thread nD τ).loc b))

/-- What point t writes back is block t of the projection of the three arrays the launch found. -/
theorem flushedBlock_eq (c : Dev nD) (t : Fin cfg0.N) :
    (dat0 (F := Ideal) V c).flushed 3 t
      = ((cfg0.win 3).blk t).view.read (Elt Ideal) (Formulas.projected (V c main_v26) (V c main_v27) (V c main_v29)) := by
  show (cfg0.win 3).cut (grid0.coords t) ((dat0 V c).after 3 t) = _
  rw [after0_3]
  unfold out0_3
  rw [View.canon_unit_zero zeroOffsets]
  simp only [View.ld_unit_zero (S := S2000x128) zeroOffsets, View.ld_unit_zero (S := S128x384) zeroOffsets, View.ld_unit_zero (S := S1x384) zeroOffsets]
  obtain ⟨e0, e1, e2, e3, e4, e5, e6, e7⟩ := blockIndex_facts t
  funext j
  obtain ⟨p, q, rfl⟩ : ∃ (p : Fin 2000) (q : Fin 384), j = ix2 p q := ⟨j 0, j 1, eq_ix2 j⟩
  show k0_pay1 (iblk0 V c 0 t) (iblk0 V c 1 t) (iblk0 V c 2 t) (ix2 p q)
    = Formulas.projected (V c main_v26) (V c main_v27) (V c main_v29) (((cfg0.win 3).blk t).view.emb (ix2 p q))
  refine storedBlock_apply _ _ _ _ _ _ p q _ (fun k => ?_) (fun k => ?_) ?_
  · show V c main_v26 (((cfg0.win 0).blk t).view.emb (ix2 p k)) = V c main_v26 _
    congr 1
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  · show V c main_v27 (((cfg0.win 1).blk t).view.emb (ix2 k q)) = V c main_v27 _
    congr 1
    funext a; apply Fin.ext
    match a with
    | ⟨0, _⟩ => show win0_1.index t (0 : Fin 2) * 128 + 1 * k.val = k.val; omega
    | ⟨1, _⟩ => show win0_1.index t (1 : Fin 2) * 384 + 1 * q.val = win0_3.index t (1 : Fin 2) * 384 + 1 * q.val; omega
  · show V c main_v29 (((cfg0.win 2).blk t).view.emb (ix2 (0 : Fin 1) q)) = V c main_v29 _
    congr 1
    funext a; apply Fin.ext
    match a with
    | ⟨0, _⟩ => show win0_2.index t (0 : Fin 2) * 1 + 1 * (0 : Fin 1).val = (0 : Fin 1).val; omega
    | ⟨1, _⟩ => show win0_2.index t (1 : Fin 2) * 384 + 1 * q.val = win0_3.index t (1 : Fin 2) * 384 + 1 * q.val; omega

/-- An index of the result array is in point t's block iff each coordinate is in the block's range on its axis. -/
theorem mem_resultBlock (t : Fin cfg0.N) (i : S50000x384.Idx) :
    i ∈ ((cfg0.win 3).blk t).view.set ↔ ∀ a : Fin 2, win0_3.index t a * S2000x384.size a ≤ (i a).val ∧ (i a).val < win0_3.index t a * S2000x384.size a + S2000x384.size a := by
  show i ∈ ((View.whole main_v30).slice (win0_3.rect t)).set ↔ _
  rw [View.set_slice_whole, Rect.mem_set_unit]
  exact Iff.rfl

/-- Row r of the result lies in the block of point r / 2000: the 25 blocks of 2000 rows fill the 50000 rows. -/
theorem resultBlocks_cover (i : S50000x384.Idx) :
    ∃ t : Fin cfg0.N, (cfg0.win 3).flush t = true ∧ i ∈ ((cfg0.win 3).blk t).view.set := by
  have hi0 : (i 0).val < 50000 := (i 0).isLt
  have hi1 : (i 1).val < 384 := (i 1).isLt
  have hN : grid0.N = 25 := N_0
  obtain ⟨t, ht⟩ : ∃ t : Fin cfg0.N, t.val = (i 0).val / 2000 := ⟨⟨(i 0).val / 2000, by show _ < grid0.N; rw [hN]; omega⟩, rfl⟩
  obtain ⟨e0, e1, e2, e3, e4, e5, e6, e7⟩ := blockIndex_facts t
  refine ⟨t, flush0_3 t, ?_⟩
  rw [mem_resultBlock]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 384 ≤ (i 1).val ∧ (i 1).val < win0_3.index t (1 : Fin 2) * 384 + 384; omega

end Blocks

end NodeProj

/-- After launch 0 the result array holds the projection of the three arrays the launch found. -/
theorem nodeProj_array (V : (c : Dev nD) → (b : Ref sig .tc) → Buf (Elt Ideal) ((c : Thread nD τ).loc b)) (c : Dev nD) :
    (dat0 (F := Ideal) V c).arrAt 3 cfg0.N = Formulas.projected (V c main_v26) (V c main_v27) (V c main_v29) := by
  exact (dat0 (F := Ideal) V c).arrAt_eq_of_cover 3 (Formulas.projected (V c main_v26) (V c main_v27) (V c main_v29))
    (fun t _ => NodeProj.flushedBlock_eq V c t) NodeProj.resultBlocks_cover

end Cert.KernelIdeal.Values

end
-- ==== Proof.EdgeValue.lean ====
/-
  Launch 1 at the array level. Each of its 1600 points stages edges 1000 t … 1000 t + 999 of the gathered keys,
  queries and values and writes back the same edges of two arrays: per edge and head the score
  exp(min 10 (max (−10) (⟨k, q⟩ / 4))), and the value row scaled by that score. Here: the two payloads read at an
  edge, a head and a lane of a block (the lane sum as a sum over the 16 lanes, the score column broadcast along the
  lanes); each staged block as a run of 1000 edges of its array; so what a point writes back is its block of the
  whole-array score and weighted-value functions; and, the 1600 blocks tiling the 1600000 edges, the two arrays after
  the launch are those functions of the arrays the launch found.
-/
import proofs.«427591_j77103252898070_3_alg».proof.Proof.Formulas
import proofs.«427591_j77103252898070_3_alg».proof.Proof.EdgeBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Values
open Cert.KernelIdeal Cert.KernelIdeal.Gen Idealize.ShloMosaic Idealize.ShloMosaic.TcCoe Idealize.ShloMosaic.ValueIdx Idealize.SL.Sem
open Idealize.ShloMosaic.Pipeline (Dat)

/-! ## The payloads of a block, read at an edge, a head and a lane -/

/-- The sum over the lane axis of a [1000, 8, 16] block, at edge r and head h, is the sum of its 16 lanes there:
    the index the reduction inserts lane d into (r, h) at is (r, h, d). -/
theorem lane_sum (src : FVec Ideal S1000x8x16 .f32) (hφ : FKind.Formats .f32)
    (hacc : (0x00000000#32 : BitVec 32) = FKind.add.neutral .f32 hφ) (r : Fin 1000) (h : Fin 8) :
    multiReduction (F := Ideal) .add [2] S1000x8 src 0x00000000#32 reduces_S1000x8x16_S1000x8 hφ hacc (ix2 r h)
      = ∑ d : Fin 16, src (ix3 r h d) := by
  refine (Ideal.multiReduction_add_single src 0x00000000#32 reduces_S1000x8x16_S1000x8 hφ hacc (ix2 r h)).trans ?_
  show ∑ k : Fin 16, src (reduces_S1000x8x16_S1000x8.lift (ix2 r h) k) = ∑ d : Fin 16, src (ix3 r h d)
  refine Finset.sum_congr rfl fun d _ => congrArg src ?_
  funext a
  match a with
  | ⟨0, _⟩ => rfl
  | ⟨1, _⟩ => rfl
  | ⟨2, _⟩ => rfl

/-- The score payload at edge r and head h of a block: exp (min 10 (max (−10) ((∑_d x0[r,h,d] · x1[r,h,d]) / 4))),
    the three literals as the words the program prints. Every step but the lane sum is pointwise. -/
theorem score_block_apply (x0 x1 : Vec Ideal S1000x8x16 .f32) (r : Fin 1000) (h : Fin 8) :
    k1_pay1 x0 x1 (ix2 r h) = Ideal.exp (min (Ideal.ofBits .f32 0x41200000#32) (max (Ideal.ofBits .f32 0xC1200000#32)
      (Ideal.div (∑ d : Fin 16, x0 (ix3 r h d) * x1 (ix3 r h d)) (Ideal.ofBits .f32 0x40800000#32)))) := by
  unfold k1_pay1
  simp only [shapeCast_self]
  exact congrArg (fun z => Ideal.exp (min (Ideal.ofBits .f32 0x41200000#32) (max (Ideal.ofBits .f32 0xC1200000#32)
      (Ideal.div z (Ideal.ofBits .f32 0x40800000#32))))) (lane_sum (mulf x0 x1) (.inl rfl) rfl r h)

/-- The weighted-value payload at edge r, head h and lane d of a block: the value there times the block's score at
    (r, h). The score column [1000, 8] is viewed [1000, 8, 1] (the same row-major position, r · 8 + h) and broadcast
    along the lane axis (lane d reads the unit axis at 0). -/
theorem weighted_block_apply (x0 x1 x2 : Vec Ideal S1000x8x16 .f32) (r : Fin 1000) (h : Fin 8) (d : Fin 16) :
    k1_pay2 x0 x1 x2 (ix3 r h d) = x2 (ix3 r h d) * k1_pay1 x0 x1 (ix2 r h) := by
  unfold k1_pay2
  simp only [shapeCast_self]
  show x2 (ix3 r h d) * broadcastTo S1000x8x16 (shapeCast S1000x8x1 (k1_pay1 x0 x1) shapeCasts_S1000x8_S1000x8x1) broadcasts_S1000x8x1_S1000x8x16 (ix3 r h d) = _
  congr 1
  rw [broadcastTo_apply _ broadcasts_S1000x8x1_S1000x8x16 (ix3 r h d) (ix3 r h (0 : Fin 1)) (fun a => by
    match a with
    | ⟨0, _⟩ => rfl
    | ⟨1, _⟩ => rfl
    | ⟨2, _⟩ => rfl)]
  exact shapeCast_apply _ shapeCasts_S1000x8_S1000x8x1 (ix3 r h (0 : Fin 1)) (ix2 r h) (by
    rw [Shape.rowMajor_val_two, Shape.rowMajor_val_three]
    show r.val * 8 + h.val = (r.val * 8 + h.val) * 1 + 0
    omega)

/-! ## From blocks that are runs of 1000 edges to the whole-array functions -/

/-- Blocks that are edges 1000 b … 1000 b + 999 of the key and query arrays give, through the score payload, the score
    of those edges: the two sums agree term by term. -/
theorem score_of_blocks (k q : FVec Ideal S1600000x8x16 .f32) (x0 x1 : Vec Ideal S1000x8x16 .f32) (b : Nat)
    (hx0 : ∀ (y : S1000x8x16.Idx) (i : S1600000x8x16.Idx), (i 0).val = b * 1000 + (y 0).val → (i 1).val = (y 1).val → (i 2).val = (y 2).val → x0 y = k i)
    (hx1 : ∀ (y : S1000x8x16.Idx) (i : S1600000x8x16.Idx), (i 0).val = b * 1000 + (y 0).val → (i 1).val = (y 1).val → (i 2).val = (y 2).val → x1 y = q i)
    (y : S1000x8.Idx) (i : S1600000x8.Idx) (hi0 : (i 0).val = b * 1000 + (y 0).val) (hi1 : (i 1).val = (y 1).val) :
    k1_pay1 x0 x1 y = Formulas.score k q i := by
  obtain ⟨r, h, rfl⟩ : ∃ (r : Fin 1000) (h : Fin 8), y = ix2 r h := ⟨y 0, y 1, eq_ix2 y⟩
  rw [score_block_apply]
  have e0 : ∀ d : Fin 16, x0 (ix3 r h d) = k (ix3 (i 0) (i 1) d) := fun d => hx0 _ _ hi0 hi1 rfl
  have e1 : ∀ d : Fin 16, x1 (ix3 r h d) = q (ix3 (i 0) (i 1) d) := fun d => hx1 _ _ hi0 hi1 rfl
  simp only [e0, e1]
  rfl

/-- Likewise the weighted-value payload gives the value row of those edges scaled by their score. -/
theorem weighted_of_blocks (k q v : FVec Ideal S1600000x8x16 .f32) (x0 x1 x2 : Vec Ideal S1000x8x16 .f32) (b : Nat)
    (hx0 : ∀ (y : S1000x8x16.Idx) (i : S1600000x8x16.Idx), (i 0).val = b * 1000 + (y 0).val → (i 1).val = (y 1).val → (i 2).val = (y 2).val → x0 y = k i)
    (hx1 : ∀ (y : S1000x8x16.Idx) (i : S1600000x8x16.Idx), (i 0).val = b * 1000 + (y 0).val → (i 1).val = (y 1).val → (i 2).val = (y 2).val → x1 y = q i)
    (hx2 : ∀ (y : S1000x8x16.Idx) (i : S1600000x8x16.Idx), (i 0).val = b * 1000 + (y 0).val → (i 1).val = (y 1).val → (i 2).val = (y 2).val → x2 y = v i)
    (y : S1000x8x16.Idx) (i : S1600000x8x16.Idx) (hi0 : (i 0).val = b * 1000 + (y 0).val) (hi1 : (i 1).val = (y 1).val) (hi2 : (i 2).val = (y 2).val) :
    k1_pay2 x0 x1 x2 y = Formulas.weighted k q v i := by
  obtain ⟨r, h, d, rfl⟩ : ∃ (r : Fin 1000) (h : Fin 8) (d : Fin 16), y = ix3 r h d := ⟨y 0, y 1, y 2, eq_ix3 y⟩
  rw [weighted_block_apply]
  show x2 (ix3 r h d) * k1_pay1 x0 x1 (ix2 r h) = v i * Formulas.score k q (ix2 (i 0) (i 1))
  rw [hx2 (ix3 r h d) i hi0 hi1 hi2, score_of_blocks k q x0 x1 b hx0 hx1 (ix2 r h) (ix2 (i 0) (i 1)) hi0 hi1]

/-! ## The grid: 1600 points, point t on block t of every window -/

/-- The launch has 1600 points. -/
theorem points_eq : cfg1.N = 1600 := by decide +kernel

/-- The printed index maps over the grid: every window's block index is the point's number on the edge axis and zero
    on the head and lane axes. -/
theorem block_index : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 2) = t.val ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The zero offsets of a whole-block rectangle of rank 2, as a constant function. -/
theorem zeros2 : (![0, 0] : Fin 2 → Nat) = fun _ => 0 := funext fun a => by fin_cases a <;> rfl
/-- The zero offsets of a whole-block rectangle of rank 3, as a constant function. -/
theorem zeros3 : (![0, 0, 0] : Fin 3 → Nat) = fun _ => 0 := funext fun a => by fin_cases a <;> rfl

section Blocks

variable (V : (c : Dev nD) → (b : Ref sig .tc) → Buf (Elt Ideal) ((c : Thread nD τ).loc b))

/-! ## Each staged block is a run of 1000 edges of its array

An element of the block at point t sits in the array, on each axis, at block index × block size + 1 × its coordinate in
the block: 1000 t + y₀ on the edge axis, y₁ and y₂ on the head and lane axes. -/

/-- The staged key block at point t holds edges 1000 t … 1000 t + 999 of the gathered keys. -/
theorem key_block_apply (c : Dev nD) (t : Fin cfg1.N) (y : S1000x8x16.Idx) (i : S1600000x8x16.Idx)
    (h0 : (i 0).val = t.val * 1000 + (y 0).val) (h1 : (i 1).val = (y 1).val) (h2 : (i 2).val = (y 2).val) :
    (iblk1 V c 0 t : Vec Ideal S1000x8x16 .f32) y = (V c main_v43 : S1600000x8x16.Idx → Elt Ideal .f32) i := by
  obtain ⟨e0, e1, e2, -⟩ := block_index t
  unfold iblk1
  rw [View.read_apply]
  show V c main_v43 _ = V c main_v43 i
  congr 1
  funext a
  apply Fin.ext
  match a with
  | ⟨0, _⟩ => show win1_0.index t (0 : Fin 3) * 1000 + 1 * (y 0).val = (i 0).val; rw [e0, h0]; omega
  | ⟨1, _⟩ => show win1_0.index t (1 : Fin 3) * 8 + 1 * (y 1).val = (i 1).val; rw [e1, h1]; omega
  | ⟨2, _⟩ => show win1_0.index t (2 : Fin 3) * 16 + 1 * (y 2).val = (i 2).val; rw [e2, h2]; omega

/-- The staged query block at point t holds edges 1000 t … 1000 t + 999 of the gathered queries. -/
theorem query_block_apply (c : Dev nD) (t : Fin cfg1.N) (y : S1000x8x16.Idx) (i : S1600000x8x16.Idx)
    (h0 : (i 0).val = t.val * 1000 + (y 0).val) (h1 : (i 1).val = (y 1).val) (h2 : (i 2).val = (y 2).val) :
    (iblk1 V c 1 t : Vec Ideal S1000x8x16 .f32) y = (V c main_v50 : S1600000x8x16.Idx → Elt Ideal .f32) i := by
  obtain ⟨-, -, -, e0, e1, e2, -⟩ := block_index t
  unfold iblk1
  rw [View.read_apply]
  show V c main_v50 _ = V c main_v50 i
  congr 1
  funext a
  apply Fin.ext
  match a with
  | ⟨0, _⟩ => show win1_1.index t (0 : Fin 3) * 1000 + 1 * (y 0).val = (i 0).val; rw [e0, h0]; omega
  | ⟨1, _⟩ => show win1_1.index t (1 : Fin 3) * 8 + 1 * (y 1).val = (i 1).val; rw [e1, h1]; omega
  | ⟨2, _⟩ => show win1_1.index t (2 : Fin 3) * 16 + 1 * (y 2).val = (i 2).val; rw [e2, h2]; omega

/-- The staged value block at point t holds edges 1000 t … 1000 t + 999 of the gathered values. -/
theorem value_block_apply (c : Dev nD) (t : Fin cfg1.N) (y : S1000x8x16.Idx) (i : S1600000x8x16.Idx)
    (h0 : (i 0).val = t.val * 1000 + (y 0).val) (h1 : (i 1).val = (y 1).val) (h2 : (i 2).val = (y 2).val) :
    (iblk1 V c 2 t : Vec Ideal S1000x8x16 .f32) y = (V c main_v57 : S1600000x8x16.Idx → Elt Ideal .f32) i := by
  obtain ⟨-, -, -, -, -, -, e0, e1, e2, -⟩ := block_index t
  unfold iblk1
  rw [View.read_apply]
  show V c main_v57 _ = V c main_v57 i
  congr 1
  funext a
  apply Fin.ext
  match a with
  | ⟨0, _⟩ => show win1_2.index t (0 : Fin 3) * 1000 + 1 * (y 0).val = (i 0).val; rw [e0, h0]; omega
  | ⟨1, _⟩ => show win1_2.index t (1 : Fin 3) * 8 + 1 * (y 1).val = (i 1).val; rw [e1, h1]; omega
  | ⟨2, _⟩ => show win1_2.index t (2 : Fin 3) * 16 + 1 * (y 2).val = (i 2).val; rw [e2, h2]; omega

/-! ## What a point writes back

The body's one whole-block store leaves its payload of the whole loaded blocks; read at an element of the output block,
whose place in the array is again 1000 t + y₀ on the edge axis, that payload is the whole-array function there. -/

/-- What point t writes back to the score array is block t of the score function of the gathered keys and queries. -/
theorem score_written (c : Dev nD) (t : Fin cfg1.N) :
    (dat1 (F := Ideal) V c).flushed 3 t
      = ((cfg1.win 3).blk t).view.read (Elt Ideal) (Formulas.score (V c main_v43) (V c main_v50)) := by
  show (cfg1.win 3).cut (grid1.coords t) ((dat1 V c).after 3 t) = _
  rw [after1_3]
  unfold out1_3
  rw [View.canon_unit_zero zeros2]
  simp only [View.ld_unit_zero (S := S1000x8x16) zeros3]
  obtain ⟨-, -, -, -, -, -, -, -, -, e0, e1, -⟩ := block_index t
  funext j
  show k1_pay1 (iblk1 V c 0 t) (iblk1 V c 1 t) j = Formulas.score (V c main_v43) (V c main_v50) (((cfg1.win 3).blk t).view.emb j)
  refine score_of_blocks _ _ _ _ t.val (key_block_apply V c t) (query_block_apply V c t) j _ ?_ ?_
  · show win1_3.index t (0 : Fin 2) * 1000 + 1 * (j 0).val = t.val * 1000 + (j 0).val
    rw [e0]; omega
  · show win1_3.index t (1 : Fin 2) * 8 + 1 * (j 1).val = (j 1).val
    rw [e1]; omega

/-- What point t writes back to the weighted-value array is block t of the weighted function of the gathered keys,
    queries and values. -/
theorem weighted_written (c : Dev nD) (t : Fin cfg1.N) :
    (dat1 (F := Ideal) V c).flushed 4 t
      = ((cfg1.win 4).blk t).view.read (Elt Ideal) (Formulas.weighted (V c main_v43) (V c main_v50) (V c main_v57)) := by
  show (cfg1.win 4).cut (grid1.coords t) ((dat1 V c).after 4 t) = _
  rw [after1_4]
  unfold out1_4
  rw [View.canon_unit_zero zeros3]
  simp only [View.ld_unit_zero (S := S1000x8x16) zeros3]
  obtain ⟨-, -, -, -, -, -, -, -, -, -, -, e0, e1, e2⟩ := block_index t
  funext j
  show k1_pay2 (iblk1 V c 0 t) (iblk1 V c 1 t) (iblk1 V c 2 t) j
    = Formulas.weighted (V c main_v43) (V c main_v50) (V c main_v57) (((cfg1.win 4).blk t).view.emb j)
  refine weighted_of_blocks _ _ _ _ _ _ t.val (key_block_apply V c t) (query_block_apply V c t) (value_block_apply V c t) j _ ?_ ?_ ?_
  · show win1_4.index t (0 : Fin 3) * 1000 + 1 * (j 0).val = t.val * 1000 + (j 0).val
    rw [e0]; omega
  · show win1_4.index t (1 : Fin 3) * 8 + 1 * (j 1).val = (j 1).val
    rw [e1]; omega
  · show win1_4.index t (2 : Fin 3) * 16 + 1 * (j 2).val = (j 2).val
    rw [e2]; omega

end Blocks

/-! ## The blocks tile the arrays: edge e is in the block of point e / 1000 -/

/-- Every edge and head is in the score block of the point numbered by the edge's thousand. -/
theorem score_covered (i : S1600000x8.Idx) :
    ∃ t : Fin cfg1.N, (cfg1.win 3).flush t = true ∧ i ∈ ((cfg1.win 3).blk t).view.set := by
  have hi0 : (i 0).val < 1600000 := (i 0).isLt
  have hi1 : (i 1).val < 8 := (i 1).isLt
  have hN : cfg1.N = 1600 := points_eq
  let t : Fin cfg1.N := ⟨(i 0).val / 1000, by rw [hN]; omega⟩
  obtain ⟨-, -, -, -, -, -, -, -, -, e0, e1, -⟩ := block_index t
  have ht : t.val = (i 0).val / 1000 := rfl
  refine ⟨t, flush1_3 t, ?_⟩
  show i ∈ ((View.whole main_v58_0).slice (win1_3.rect t)).set
  rw [View.set_slice_whole, Rect.mem_set_unit]
  intro a
  match a with
  | ⟨0, _⟩ =>
    show win1_3.index t (0 : Fin 2) * 1000 ≤ (i 0).val ∧ (i 0).val < win1_3.index t (0 : Fin 2) * 1000 + 1000
    rw [e0, ht]; omega
  | ⟨1, _⟩ =>
    show win1_3.index t (1 : Fin 2) * 8 ≤ (i 1).val ∧ (i 1).val < win1_3.index t (1 : Fin 2) * 8 + 8
    rw [e1]; omega

/-- Every edge, head and lane is in the weighted-value block of the point numbered by the edge's thousand. -/
theorem weighted_covered (i : S1600000x8x16.Idx) :
    ∃ t : Fin cfg1.N, (cfg1.win 4).flush t = true ∧ i ∈ ((cfg1.win 4).blk t).view.set := by
  have hi0 : (i 0).val < 1600000 := (i 0).isLt
  have hi1 : (i 1).val < 8 := (i 1).isLt
  have hi2 : (i 2).val < 16 := (i 2).isLt
  have hN : cfg1.N = 1600 := points_eq
  let t : Fin cfg1.N := ⟨(i 0).val / 1000, by rw [hN]; omega⟩
  obtain ⟨-, -, -, -, -, -, -, -, -, -, -, e0, e1, e2⟩ := block_index t
  have ht : t.val = (i 0).val / 1000 := rfl
  refine ⟨t, flush1_4 t, ?_⟩
  show i ∈ ((View.whole main_v58_1).slice (win1_4.rect t)).set
  rw [View.set_slice_whole, Rect.mem_set_unit]
  intro a
  match a with
  | ⟨0, _⟩ =>
    show win1_4.index t (0 : Fin 3) * 1000 ≤ (i 0).val ∧ (i 0).val < win1_4.index t (0 : Fin 3) * 1000 + 1000
    rw [e0, ht]; omega
  | ⟨1, _⟩ =>
    show win1_4.index t (1 : Fin 3) * 8 ≤ (i 1).val ∧ (i 1).val < win1_4.index t (1 : Fin 3) * 8 + 8
    rw [e1]; omega
  | ⟨2, _⟩ =>
    show win1_4.index t (2 : Fin 3) * 16 ≤ (i 2).val ∧ (i 2).val < win1_4.index t (2 : Fin 3) * 16 + 16
    rw [e2]; omega

/-! ## The two arrays after the launch -/

/-- After launch 1 the score array holds every edge's score of the gathered keys and queries the launch found. -/
theorem edge_score_array (V : (c : Dev nD) → (b : Ref sig .tc) → Buf (Elt Ideal) ((c : Thread nD τ).loc b)) (c : Dev nD) :
    (dat1 (F := Ideal) V c).arrAt 3 cfg1.N = Formulas.score (V c main_v43) (V c main_v50) :=
  (dat1 (F := Ideal) V c).arrAt_eq_of_cover 3 (Formulas.score (V c main_v43) (V c main_v50))
    (fun t _ => score_written V c t) score_covered

/-- After launch 1 the weighted-value array holds every edge's value row scaled by its score. -/
theorem edge_weighted_array (V : (c : Dev nD) → (b : Ref sig .tc) → Buf (Elt Ideal) ((c : Thread nD τ).loc b)) (c : Dev nD) :
    (dat1 (F := Ideal) V c).arrAt 4 cfg1.N = Formulas.weighted (V c main_v43) (V c main_v50) (V c main_v57) :=
  (dat1 (F := Ideal) V c).arrAt_eq_of_cover 4 (Formulas.weighted (V c main_v43) (V c main_v50) (V c main_v57))
    (fun t _ => weighted_written V c t) weighted_covered

end Cert.KernelIdeal.Values

end
-- ==== Proof.NormalizeValue.lean ====
import proofs.«427591_j77103252898070_3_alg».proof.Proof.Formulas
import proofs.«427591_j77103252898070_3_alg».proof.Proof.NormalizeBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Values
open Cert.KernelIdeal Cert.KernelIdeal.Gen Idealize.ShloMosaic Idealize.ShloMosaic.TcCoe Idealize.ShloMosaic.ValueIdx Idealize.SL.Sem
open Idealize.ShloMosaic.Pipeline (Dat)

/-! ## The block's value at one element -/

/-- The zero offsets of a whole-block rectangle, of rank 3 and of rank 2. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- Element (r, h, d) of what the body stores: the weighted-value block there over the score block at (r, h) plus the
    literal. The score block is viewed [200,8,1] (same row-major position), the literal is added on that shape, and the
    sum is repeated along the last axis, so the divisor at (r, h, d) is the sum at (r, h, 0). -/
theorem normalize_payload (x0 : Vec Ideal S200x8x16 .f32) (x1 : Vec Ideal S200x8 .f32) (r : Fin 200) (h : Fin 8) (d : Fin 16) :
    k2_pay1 x0 x1 (ix3 r h d) = Ideal.div (x0 (ix3 r h d)) (x1 (ix2 r h) + Ideal.ofBits .f32 0x358637BD#32) := by
  unfold k2_pay1
  rw [shapeCast_self, shapeCast_self, divf_apply]
  rw [broadcastTo_apply _ broadcasts_S200x8x1_S200x8x16 (ix3 r h d) (ix3 r h (0 : Fin 1)) (fun a => by
    match a with
    | ⟨0, _⟩ => rfl
    | ⟨1, _⟩ => rfl
    | ⟨2, _⟩ => rfl)]
  rw [addf_apply, broadcast_apply]
  rw [shapeCast_apply x1 shapeCasts_S200x8_S200x8x1 (ix3 r h (0 : Fin 1)) (ix2 r h) (by
    rw [Shape.rowMajor_val_two, Shape.rowMajor_val_three]
    show r.val * 8 + h.val = (r.val * 8 + h.val) * 1 + 0
    omega)]
  rfl

/-- The quotient formula at an array index, from the two reads placed at that index. -/
theorem normalized_of_reads (a0 : FVec Ideal S50000x8x16 .f32) (a1 : FVec Ideal S50000x8 .f32)
    (p0 p2 : S50000x8x16.Idx) (p1 : S50000x8.Idx) (hp0 : p0 = p2) (hp1 : p1 = ix2 (p2 0) (p2 1)) :
    Ideal.div (a0 p0) (a1 p1 + Ideal.ofBits .f32 0x358637BD#32) = Formulas.normalized a0 a1 p2 := by
  subst hp0 hp1; rfl

/-! ## Where the blocks sit -/

/-- At grid point t every window's block index is t on the node axis and 0 on the head and feature axes. -/
theorem normalize_index_maps : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0 :=
  (by decide +kernel : ∀ t : Fin grid2.N, _)

/-- What point t writes back is block t of the quotient formula over the two arrays: element (r, h, d) of the two input
    blocks and of the output block all sit at node 200·t + r (a block's coordinate is block index × block size + the
    coordinate inside the block), so the element-wise value is the formula at that node. -/
theorem normalize_flushed (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Formulas.normalized (V c main_v61) (V c main_v64)) := by
  show (cfg2.win 2).cut (grid2.coords t) ((dat2 V c).after 2 t) = _
  rw [after2_2]
  unfold out2_2
  rw [View.canon_unit_zero zeros3]
  simp only [View.ld_unit_zero (S := S200x8x16) zeros3, View.ld_unit_zero (S := S200x8) zeros2]
  obtain ⟨a0, a1, a2, b0, b1, c0, c1, c2⟩ := normalize_index_maps t
  funext j
  obtain ⟨r, h, d, rfl⟩ : ∃ (r : Fin 200) (h : Fin 8) (d : Fin 16), j = ix3 r h d := ⟨j 0, j 1, j 2, eq_ix3 j⟩
  show k2_pay1 (iblk2 V c 0 t) (iblk2 V c 1 t) (ix3 r h d) = Formulas.normalized (V c main_v61) (V c main_v64) (((cfg2.win 2).blk t).view.emb (ix3 r h d))
  refine (normalize_payload _ _ r h d).trans ?_
  -- the weighted-value block's element and the output block's element are the same array index
  have h0 : ((cfg2.win 0).blk t).view.emb (ix3 r h d) = ((cfg2.win 2).blk t).view.emb (ix3 r h d) := by
    funext a; apply Fin.ext
    match a with
    | ⟨0, _⟩ => show win2_0.index t (0 : Fin 3) * 200 + 1 * r.val = win2_2.index t (0 : Fin 3) * 200 + 1 * r.val; omega
    | ⟨1, _⟩ => show win2_0.index t (1 : Fin 3) * 8 + 1 * h.val = win2_2.index t (1 : Fin 3) * 8 + 1 * h.val; omega
    | ⟨2, _⟩ => show win2_0.index t (2 : Fin 3) * 16 + 1 * d.val = win2_2.index t (2 : Fin 3) * 16 + 1 * d.val; omega
  -- the score block's element is the output index's (node, head) pair
  have h1 : ((cfg2.win 1).blk t).view.emb (ix2 r h) = ix2 ((((cfg2.win 2).blk t).view.emb (ix3 r h d)) 0) ((((cfg2.win 2).blk t).view.emb (ix3 r h d)) 1) := by
    funext a; apply Fin.ext
    match a with
    | ⟨0, _⟩ => show win2_1.index t (0 : Fin 2) * 200 + 1 * r.val = win2_2.index t (0 : Fin 3) * 200 + 1 * r.val; omega
    | ⟨1, _⟩ => show win2_1.index t (1 : Fin 2) * 8 + 1 * h.val = win2_2.index t (1 : Fin 3) * 8 + 1 * h.val; omega
  exact normalized_of_reads (V c main_v61) (V c main_v64) _ _ _ h0 h1

/-! ## The blocks tile the array -/

/-- An index of the result array lies in point t's block exactly when each coordinate lies in the block's range on its axis. -/
theorem normalize_mem_block (t : Fin cfg2.N) (i : S50000x8x16.Idx) :
    i ∈ ((cfg2.win 2).blk t).view.set ↔ ∀ a : Fin 3, win2_2.index t a * S200x8x16.size a ≤ (i a).val ∧ (i a).val < win2_2.index t a * S200x8x16.size a + S200x8x16.size a := by
  show i ∈ ((View.whole main_v65).slice (win2_2.rect t)).set ↔ _
  rw [View.set_slice_whole, Rect.mem_set_unit]
  exact Iff.rfl

/-- Node n's rows are written back by point n / 200: 50000 = 250 · 200, and every point writes back. -/
theorem normalize_cover (i : S50000x8x16.Idx) :
    ∃ t : Fin cfg2.N, (cfg2.win 2).flush t = true ∧ i ∈ ((cfg2.win 2).blk t).view.set := by
  have hi0 : (i 0).val < 50000 := (i 0).isLt
  have hi1 : (i 1).val < 8 := (i 1).isLt
  have hi2 : (i 2).val < 16 := (i 2).isLt
  have hN : grid2.N = 250 := N_2
  obtain ⟨t, ht⟩ : ∃ t : Fin cfg2.N, t.val = (i 0).val / 200 := ⟨⟨(i 0).val / 200, by show _ < grid2.N; rw [hN]; omega⟩, rfl⟩
  obtain ⟨_, _, _, _, _, c0, c1, c2⟩ := normalize_index_maps t
  refine ⟨t, flush2_2 t, ?_⟩
  rw [normalize_mem_block]
  intro a
  match a with
  | ⟨0, _⟩ => show win2_2.index t (0 : Fin 3) * 200 ≤ (i 0).val ∧ (i 0).val < win2_2.index t (0 : Fin 3) * 200 + 200; omega
  | ⟨1, _⟩ => show win2_2.index t (1 : Fin 3) * 8 ≤ (i 1).val ∧ (i 1).val < win2_2.index t (1 : Fin 3) * 8 + 8; omega
  | ⟨2, _⟩ => show win2_2.index t (2 : Fin 3) * 16 ≤ (i 2).val ∧ (i 2).val < win2_2.index t (2 : Fin 3) * 16 + 16; omega

/-- After launch 2 the result array holds the summed weighted values over the summed scores plus the literal. -/
theorem normalize_array (V : (c : Dev nD) → (b : Ref sig .tc) → Buf (Elt Ideal) ((c : Thread nD τ).loc b)) (c : Dev nD) :
    (dat2 (F := Ideal) V c).arrAt 2 cfg2.N = Formulas.normalized (V c main_v61) (V c main_v64) :=
  (dat2 (F := Ideal) V c).arrAt_eq_of_cover 2 (Formulas.normalized (V c main_v61) (V c main_v64))
    (fun t _ => normalize_flushed V c t) normalize_cover

end Cert.KernelIdeal.Values

end
-- ==== Proof.ProjectionColumns.lean ====
import proofs.«427591_j77103252898070_3_alg».proof.Proof.Formulas
import proofs.«427591_j77103252898070_3_alg».proof.Proof.Gen.KernelIdeal

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Columns

open Cert.KernelIdeal Cert.KernelIdeal.Gen Idealize.ShloMosaic Idealize.ShloMosaic.ValueIdx

variable (a : FVec Ideal S50000x128 .f32) (wq wk wv : FVec Ideal S128x128 .f32) (bq bk bv : FVec Ideal S128 .f32)

/-- The fused weight and bias as the kernel's host code builds them. -/
abbrev fusedW : FVec Ideal S128x384 .f32 :=
  concatenate S128x384 1 [⟨S128x128, wq⟩, ⟨S128x128, wk⟩, ⟨S128x128, wv⟩] concatenates_S128x128_S128x128_S128x128_S128x384_d1
abbrev fusedB : FVec Ideal S1x384 .f32 :=
  shapeCast S1x384 (concatenate S384 0 [⟨S128, bq⟩, ⟨S128, bk⟩, ⟨S128, bv⟩] concatenates_S128_S128_S128_S384_d0) shapeCasts_S384_S1x384

/-- Column j + 128·p of the fused weight is column j of the p-th weight: the three pieces lie side by side along axis 1. -/
theorem fusedW_q (k j : Fin 128) (hj : j.val + 0 < 384) : fusedW wq wk wv (ix2 k ⟨j.val + 0, hj⟩) = wq (ix2 k j) :=
  concatenate_apply_piece (t := S128x384) (1 : Fin 2) [⟨S128x128, wq⟩, ⟨S128x128, wk⟩, ⟨S128x128, wv⟩] concatenates_S128x128_S128x128_S128x128_S128x384_d1 (ix2 k ⟨j.val + 0, hj⟩)
    0 (by show (0 : Nat) < 3; omega) S128x128 wq rfl rfl 0 rfl (ix2 k j)
    (fun b hb => by match b with | ⟨0, _⟩ => rfl | ⟨1, _⟩ => exact absurd rfl hb)
    (by show 0 + j.val = j.val + 0; omega)
theorem fusedW_k (k j : Fin 128) (hj : j.val + 128 < 384) : fusedW wq wk wv (ix2 k ⟨j.val + 128, hj⟩) = wk (ix2 k j) :=
  concatenate_apply_piece (t := S128x384) (1 : Fin 2) [⟨S128x128, wq⟩, ⟨S128x128, wk⟩, ⟨S128x128, wv⟩] concatenates_S128x128_S128x128_S128x128_S128x384_d1 (ix2 k ⟨j.val + 128, hj⟩)
    1 (by show (1 : Nat) < 3; omega) S128x128 wk rfl rfl 128 rfl (ix2 k j)
    (fun b hb => by match b with | ⟨0, _⟩ => rfl | ⟨1, _⟩ => exact absurd rfl hb)
    (by show 128 + j.val = j.val + 128; omega)
theorem fusedW_v (k j : Fin 128) (hj : j.val + 256 < 384) : fusedW wq wk wv (ix2 k ⟨j.val + 256, hj⟩) = wv (ix2 k j) :=
  concatenate_apply_piece (t := S128x384) (1 : Fin 2) [⟨S128x128, wq⟩, ⟨S128x128, wk⟩, ⟨S128x128, wv⟩] concatenates_S128x128_S128x128_S128x128_S128x384_d1 (ix2 k ⟨j.val + 256, hj⟩)
    2 (by show (2 : Nat) < 3; omega) S128x128 wv rfl rfl 256 rfl (ix2 k j)
    (fun b hb => by match b with | ⟨0, _⟩ => rfl | ⟨1, _⟩ => exact absurd rfl hb)
    (by show 256 + j.val = j.val + 256; omega)

/-- Entry (0, j + 128·p) of the fused bias is entry j of the p-th bias: the [1,384] view has the flat concatenation's
    row-major positions, and the three pieces lie end to end. -/
theorem fusedB_q (j : Fin 128) (hj : j.val + 0 < 384) : fusedB bq bk bv (ix2 (0 : Fin 1) ⟨j.val + 0, hj⟩) = bq (ix1 j) := by
  refine (shapeCast_apply _ shapeCasts_S384_S1x384 (ix2 (0 : Fin 1) ⟨j.val + 0, hj⟩) (ix1 ⟨j.val + 0, hj⟩) (by
    rw [Shape.rowMajor_val_one, Shape.rowMajor_val_two]; show j.val + 0 = 0 * 384 + (j.val + 0); omega)).trans ?_
  exact concatenate_apply_piece (t := S384) (0 : Fin 1) [⟨S128, bq⟩, ⟨S128, bk⟩, ⟨S128, bv⟩] concatenates_S128_S128_S128_S384_d0 (ix1 ⟨j.val + 0, hj⟩)
    0 (by show (0 : Nat) < 3; omega) S128 bq rfl rfl 0 rfl (ix1 j)
    (fun b hb => by match b with | ⟨0, _⟩ => exact absurd rfl hb)
    (by show 0 + j.val = j.val + 0; omega)
theorem fusedB_k (j : Fin 128) (hj : j.val + 128 < 384) : fusedB bq bk bv (ix2 (0 : Fin 1) ⟨j.val + 128, hj⟩) = bk (ix1 j) := by
  refine (shapeCast_apply _ shapeCasts_S384_S1x384 (ix2 (0 : Fin 1) ⟨j.val + 128, hj⟩) (ix1 ⟨j.val + 128, hj⟩) (by
    rw [Shape.rowMajor_val_one, Shape.rowMajor_val_two]; show j.val + 128 = 0 * 384 + (j.val + 128); omega)).trans ?_
  exact concatenate_apply_piece (t := S384) (0 : Fin 1) [⟨S128, bq⟩, ⟨S128, bk⟩, ⟨S128, bv⟩] concatenates_S128_S128_S128_S384_d0 (ix1 ⟨j.val + 128, hj⟩)
    1 (by show (1 : Nat) < 3; omega) S128 bk rfl rfl 128 rfl (ix1 j)
    (fun b hb => by match b with | ⟨0, _⟩ => exact absurd rfl hb)
    (by show 128 + j.val = j.val + 128; omega)
theorem fusedB_v (j : Fin 128) (hj : j.val + 256 < 384) : fusedB bq bk bv (ix2 (0 : Fin 1) ⟨j.val + 256, hj⟩) = bv (ix1 j) := by
  refine (shapeCast_apply _ shapeCasts_S384_S1x384 (ix2 (0 : Fin 1) ⟨j.val + 256, hj⟩) (ix1 ⟨j.val + 256, hj⟩) (by
    rw [Shape.rowMajor_val_one, Shape.rowMajor_val_two]; show j.val + 256 = 0 * 384 + (j.val + 256); omega)).trans ?_
  exact concatenate_apply_piece (t := S384) (0 : Fin 1) [⟨S128, bq⟩, ⟨S128, bk⟩, ⟨S128, bv⟩] concatenates_S128_S128_S128_S384_d0 (ix1 ⟨j.val + 256, hj⟩)
    2 (by show (2 : Nat) < 3; omega) S128 bv rfl rfl 256 rfl (ix1 j)
    (fun b hb => by match b with | ⟨0, _⟩ => exact absurd rfl hb)
    (by show 256 + j.val = j.val + 256; omega)

/-- Columns 0…127, 128…255 and 256…383 of the fused projection are the projections by the three weights. -/
theorem columns_q : extractStridedSlice S50000x128 ![0, 0] (Formulas.projected a (fusedW wq wk wv) (fusedB bq bk bv)) slices_S50000x384_S50000x128_0_0
    = Formulas.projectedBy a wq bq := by
  funext i
  obtain ⟨n, j, rfl⟩ : ∃ (n : Fin 50000) (j : Fin 128), i = ix2 n j := ⟨i 0, i 1, eq_ix2 i⟩
  have hj : j.val + 0 < 384 := by have := j.isLt; omega
  -- the slice at (n, j) is the fused projection at (n, j + 0)
  refine (extractStridedSlice_apply _ _ slices_S50000x384_S50000x128_0_0 (ix2 n j) (ix2 n ⟨j.val + 0, hj⟩) (fun b => by
    match b with
    | ⟨0, _⟩ => show n.val = 0 + n.val; omega
    | ⟨1, _⟩ => show j.val + 0 = 0 + j.val; omega)).trans ?_
  -- both sides are the same max of sum plus bias once the fused reads are the piece's reads
  show max ((∑ k : Fin 128, a (ix2 n k) * fusedW wq wk wv (ix2 k ⟨j.val + 0, hj⟩)) + fusedB bq bk bv (ix2 (0 : Fin 1) ⟨j.val + 0, hj⟩)) (Ideal.ofBits .f32 0x00000000#32)
    = max ((∑ k : Fin 128, a (ix2 n k) * wq (ix2 k j)) + bq (ix1 j)) (Ideal.ofBits .f32 0x00000000#32)
  rw [fusedB_q, Finset.sum_congr rfl (fun k _ => by rw [fusedW_q])]
theorem columns_k : extractStridedSlice S50000x128 ![0, 128] (Formulas.projected a (fusedW wq wk wv) (fusedB bq bk bv)) slices_S50000x384_S50000x128_0_128
    = Formulas.projectedBy a wk bk := by
  funext i
  obtain ⟨n, j, rfl⟩ : ∃ (n : Fin 50000) (j : Fin 128), i = ix2 n j := ⟨i 0, i 1, eq_ix2 i⟩
  have hj : j.val + 128 < 384 := by have := j.isLt; omega
  -- the slice at (n, j) is the fused projection at (n, j + 128)
  refine (extractStridedSlice_apply _ _ slices_S50000x384_S50000x128_0_128 (ix2 n j) (ix2 n ⟨j.val + 128, hj⟩) (fun b => by
    match b with
    | ⟨0, _⟩ => show n.val = 0 + n.val; omega
    | ⟨1, _⟩ => show j.val + 128 = 128 + j.val; omega)).trans ?_
  -- both sides are the same max of sum plus bias once the fused reads are the piece's reads
  show max ((∑ k : Fin 128, a (ix2 n k) * fusedW wq wk wv (ix2 k ⟨j.val + 128, hj⟩)) + fusedB bq bk bv (ix2 (0 : Fin 1) ⟨j.val + 128, hj⟩)) (Ideal.ofBits .f32 0x00000000#32)
    = max ((∑ k : Fin 128, a (ix2 n k) * wk (ix2 k j)) + bk (ix1 j)) (Ideal.ofBits .f32 0x00000000#32)
  rw [fusedB_k, Finset.sum_congr rfl (fun k _ => by rw [fusedW_k])]
theorem columns_v : extractStridedSlice S50000x128 ![0, 256] (Formulas.projected a (fusedW wq wk wv) (fusedB bq bk bv)) slices_S50000x384_S50000x128_0_256
    = Formulas.projectedBy a wv bv := by
  funext i
  obtain ⟨n, j, rfl⟩ : ∃ (n : Fin 50000) (j : Fin 128), i = ix2 n j := ⟨i 0, i 1, eq_ix2 i⟩
  have hj : j.val + 256 < 384 := by have := j.isLt; omega
  -- the slice at (n, j) is the fused projection at (n, j + 256)
  refine (extractStridedSlice_apply _ _ slices_S50000x384_S50000x128_0_256 (ix2 n j) (ix2 n ⟨j.val + 256, hj⟩) (fun b => by
    match b with
    | ⟨0, _⟩ => show n.val = 0 + n.val; omega
    | ⟨1, _⟩ => show j.val + 256 = 256 + j.val; omega)).trans ?_
  -- both sides are the same max of sum plus bias once the fused reads are the piece's reads
  show max ((∑ k : Fin 128, a (ix2 n k) * fusedW wq wk wv (ix2 k ⟨j.val + 256, hj⟩)) + fusedB bq bk bv (ix2 (0 : Fin 1) ⟨j.val + 256, hj⟩)) (Ideal.ofBits .f32 0x00000000#32)
    = max ((∑ k : Fin 128, a (ix2 n k) * wv (ix2 k j)) + bv (ix1 j)) (Ideal.ofBits .f32 0x00000000#32)
  rw [fusedB_v, Finset.sum_congr rfl (fun k _ => by rw [fusedW_v])]

end Cert.KernelIdeal.Columns

end
-- ==== Proof.ReferenceStages.lean ====
import proofs.«427591_j77103252898070_3_alg».proof.Proof.Formulas
import proofs.«427591_j77103252898070_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Stages

open Cert.ReferenceIdeal Cert.ReferenceIdeal.Read Idealize.ShloMosaic Idealize.ShloMosaic.TcCoe Idealize.ShloMosaic.ValueIdx
open Cert.KernelIdeal (Formulas.projectedBy Formulas.score Formulas.weighted Formulas.normalized)

variable (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S1600000, .i32⟩ : BufTy).Contents (Elt Ideal)) (x8 : (⟨S1600000, .i32⟩ : BufTy).Contents (Elt Ideal))

/-- The reference's three projections are the one-weight projection of its aggregated features. -/
theorem proj_q : val_main_v31 (F := Ideal) x0 x1 x2 x7 x8 = Cert.KernelIdeal.Formulas.projectedBy (val_main_v26 (F := Ideal) x0 x7 x8) x1 x2 := by
  funext i
  -- the contraction reads row (i 0) of the features against column (i 1) of the weight; the bias is read at column (i 1)
  have el : ∀ k : Fin 128, lidx_main_v27 i k = ix2 (i 0) k := fun k =>
    funext fun a => Fin.ext (by match a with | ⟨0, _⟩ => rfl | ⟨1, _⟩ => rfl)
  have er : ∀ k : Fin 128, ridx_main_v27 i k = ix2 k (i 1) := fun k =>
    funext fun a => Fin.ext (by match a with | ⟨0, _⟩ => rfl | ⟨1, _⟩ => rfl)
  have eb : idx_main_v28 (idx_main_v29 i) = ix1 (i 1) :=
    funext fun a => Fin.ext (by match a with | ⟨0, _⟩ => rfl)
  rw [val_main_v31_apply, val_main_v30_apply, val_main_v27_apply, val_main_v29_apply, val_main_v28_apply,
    val_main_call2_v0_apply, val_main_call2_cst_apply]
  simp only [el, er, eb, Ideal.maximumf_def, Ideal.addf_def, Ideal.ofBits_def]
  rfl
theorem proj_k : val_main_v52 (F := Ideal) x0 x3 x4 x7 x8 = Cert.KernelIdeal.Formulas.projectedBy (val_main_v47 (F := Ideal) x0 x7 x8) x3 x4 := by
  funext i
  have el : ∀ k : Fin 128, lidx_main_v48 i k = ix2 (i 0) k := fun k =>
    funext fun a => Fin.ext (by match a with | ⟨0, _⟩ => rfl | ⟨1, _⟩ => rfl)
  have er : ∀ k : Fin 128, ridx_main_v48 i k = ix2 k (i 1) := fun k =>
    funext fun a => Fin.ext (by match a with | ⟨0, _⟩ => rfl | ⟨1, _⟩ => rfl)
  have eb : idx_main_v49 (idx_main_v50 i) = ix1 (i 1) :=
    funext fun a => Fin.ext (by match a with | ⟨0, _⟩ => rfl)
  rw [val_main_v52_apply, val_main_v51_apply, val_main_v48_apply, val_main_v50_apply, val_main_v49_apply,
    val_main_call3_v0_apply, val_main_call3_cst_apply]
  simp only [el, er, eb, Ideal.maximumf_def, Ideal.addf_def, Ideal.ofBits_def]
  rfl
theorem proj_v : val_main_v73 (F := Ideal) x0 x5 x6 x7 x8 = Cert.KernelIdeal.Formulas.projectedBy (val_main_v68 (F := Ideal) x0 x7 x8) x5 x6 := by
  funext i
  have el : ∀ k : Fin 128, lidx_main_v69 i k = ix2 (i 0) k := fun k =>
    funext fun a => Fin.ext (by match a with | ⟨0, _⟩ => rfl | ⟨1, _⟩ => rfl)
  have er : ∀ k : Fin 128, ridx_main_v69 i k = ix2 k (i 1) := fun k =>
    funext fun a => Fin.ext (by match a with | ⟨0, _⟩ => rfl | ⟨1, _⟩ => rfl)
  have eb : idx_main_v70 (idx_main_v71 i) = ix1 (i 1) :=
    funext fun a => Fin.ext (by match a with | ⟨0, _⟩ => rfl)
  rw [val_main_v73_apply, val_main_v72_apply, val_main_v69_apply, val_main_v71_apply, val_main_v70_apply,
    val_main_call4_v0_apply, val_main_call4_cst_apply]
  simp only [el, er, eb, Ideal.maximumf_def, Ideal.addf_def, Ideal.ofBits_def]
  rfl

/-- The reference's score stage is the score of its gathered keys and queries. -/
theorem score_stage : val_main_v96 (F := Ideal) x0 x1 x2 x3 x4 x7 x8
    = Cert.KernelIdeal.Formulas.score (val_main_v83 (F := Ideal) x0 x3 x4 x7 x8) (val_main_v90 (F := Ideal) x0 x1 x2 x7 x8) := by
  funext i
  -- the sum over the last axis reads the product of keys and queries at (edge, head, d)
  have es : ∀ d : Fin 16, idx_main_v92 i d = ix3 (i 0) (i 1) d := fun d =>
    funext fun a => Fin.ext (by match a with | ⟨0, _⟩ => rfl | ⟨1, _⟩ => rfl | ⟨2, _⟩ => rfl)
  have hs : ∀ d : Fin 16, val_main_v91 (F := Ideal) x0 x1 x2 x3 x4 x7 x8 (idx_main_v92 i d)
      = val_main_v83 (F := Ideal) x0 x3 x4 x7 x8 (ix3 (i 0) (i 1) d) * val_main_v90 (F := Ideal) x0 x1 x2 x7 x8 (ix3 (i 0) (i 1) d) := fun d => by
    rw [val_main_v91_apply, es d, Ideal.mulf_def]
    rfl
  rw [val_main_v96_apply, val_main_v95_apply, val_main_call5_v4_apply, val_main_call5_v3_apply, val_main_cst_19_apply,
    val_main_call5_v2_apply, val_main_call5_v1_apply, val_main_call5_v0_apply, val_main_cst_18_apply,
    val_main_v94_apply, val_main_v92_apply, val_main_cst_16_apply, val_main_v93_apply, val_main_cst_17_apply]
  -- the sum starts from the zero word, which is the number zero
  simp only [hs, Ideal.hostUnary_exp_def, Ideal.minimumf_def, Ideal.maximumf_def, Ideal.hostDivf_def,
    Ideal.ofBits_def, Ideal.ofBits_zero_f32, zero_add]
  rfl

/-- The reference's weighted-value stage is its gathered value rows scaled by the scores. -/
theorem weighted_stage : val_main_v106 (F := Ideal) x0 x1 x2 x3 x4 x5 x6 x7 x8
    = Cert.KernelIdeal.Formulas.weighted (val_main_v83 (F := Ideal) x0 x3 x4 x7 x8) (val_main_v90 (F := Ideal) x0 x1 x2 x7 x8) (val_main_v103 (F := Ideal) x0 x5 x6 x7 x8) := by
  funext i
  -- the score is broadcast along the last axis: entry (e, h, d) reads the score at (e, h)
  have eb : idx_main_v104 (idx_main_v105 i) = ix2 (i 0) (i 1) :=
    funext fun a => Fin.ext (by match a with | ⟨0, _⟩ => rfl | ⟨1, _⟩ => rfl)
  rw [val_main_v106_apply, val_main_v105_apply, val_main_v104_apply, eb, score_stage x0 x1 x2 x3 x4 x7 x8]
  simp only [Ideal.mulf_def]
  rfl

/-- The reference's result is the normalisation of its two scatter sums. -/
theorem normalized_stage : val_main_v117 (F := Ideal) x0 x1 x2 x3 x4 x5 x6 x7 x8
    = Cert.KernelIdeal.Formulas.normalized (val_main_v109 (F := Ideal) x0 x1 x2 x3 x4 x5 x6 x7 x8) (val_main_v112 (F := Ideal) x0 x1 x2 x3 x4 x7 x8) := by
  funext i
  -- the denominator is broadcast along the last axis: entry (n, h, d) reads the summed score at (n, h)
  have eb : idx_main_v113 (idx_main_v116 i) = ix2 (i 0) (i 1) :=
    funext fun a => Fin.ext (by match a with | ⟨0, _⟩ => rfl | ⟨1, _⟩ => rfl)
  rw [val_main_v117_apply, val_main_v116_apply, val_main_v115_apply, val_main_v113_apply, val_main_v114_apply,
    val_main_cst_24_apply, eb]
  simp only [Ideal.hostDivf_def, Ideal.addf_def, Ideal.ofBits_def]
  rfl

end Cert.ReferenceIdeal.Stages

end
-- ==== Proof.Joined.lean ====
/-
  The kernel's result is the reference's. The kernel's program is followed item by item: each stretch of host
  operations is read at the buffers later items use, over any contents it finds, and stated at once in the reference's
  own stages; each launch's result array is its closed-form function of what it found. The two programs then differ in
  one place only: the kernel projects once by the three weights side by side and cuts the columns apart, the reference
  projects three times; column by column these are the same sums.
-/
import proofs.«427591_j77103252898070_3_alg».proof.Proof.WholeRun
import proofs.«427591_j77103252898070_3_alg».proof.Proof.LibNary3
import proofs.«427591_j77103252898070_3_alg».proof.Proof.NodeProjValue
import proofs.«427591_j77103252898070_3_alg».proof.Proof.EdgeValue
import proofs.«427591_j77103252898070_3_alg».proof.Proof.NormalizeValue
import proofs.«427591_j77103252898070_3_alg».proof.Proof.ProjectionColumns
import proofs.«427591_j77103252898070_3_alg».proof.Proof.ReferenceStages

set_option maxRecDepth 16384

noncomputable section

namespace Cert.KernelIdeal.Joined

open Cert.KernelIdeal Cert.KernelIdeal.Gen Cert.KernelIdeal.Whole
open Idealize.ShloMosaic Idealize.ShloMosaic.TcCoe Idealize.ShloMosaic.StableHlo Idealize.SL.Sem
open Cert.ReferenceIdeal.Read

/-! ## The shape records of the two printed programs are the same records -/

theorem rec0 : Cert.KernelIdeal.scatter_S50000_S1600000x1_S1600000_n_0_0_1 = Cert.ReferenceIdeal.scatter_S50000_S1600000x1_S1600000_n_0_0_1 := rfl
theorem rec1 : Cert.KernelIdeal.gather_S50000x128_S1600000x1_S1600000x128_1_0_n_n_0_1_1128 = Cert.ReferenceIdeal.gather_S50000x128_S1600000x1_S1600000x128_1_0_n_n_0_1_1128 := rfl
theorem rec2 : Cert.KernelIdeal.scatter_S50000x128_S1600000x1_S1600000x128_1_0_0_1 = Cert.ReferenceIdeal.scatter_S50000x128_S1600000x1_S1600000x128_1_0_0_1 := rfl
theorem rec3 : Cert.KernelIdeal.gather_S50000x8x16_S1600000x1_S1600000x8x16_12_0_n_n_0_1_1816 = Cert.ReferenceIdeal.gather_S50000x8x16_S1600000x1_S1600000x8x16_12_0_n_n_0_1_1816 := rfl
theorem rec4 : Cert.KernelIdeal.scatter_S50000x8x16_S1600000x1_S1600000x8x16_12_0_0_1 = Cert.ReferenceIdeal.scatter_S50000x8x16_S1600000x1_S1600000x8x16_12_0_0_1 := rfl
theorem rec5 : Cert.KernelIdeal.scatter_S50000x8_S1600000x1_S1600000x8_1_0_0_1 = Cert.ReferenceIdeal.scatter_S50000x8_S1600000x1_S1600000x8_1_0_0_1 := rfl

variable (x0 : (⟨Cert.ReferenceIdeal.S50000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 x8 : (⟨Cert.ReferenceIdeal.S1600000, .i32⟩ : BufTy).Contents (Elt Ideal))

/-! ## Each stretch of host operations, read over ANY contents it finds, in the reference's stages -/

section Stretches
variable (W : Valuation τ sig (Elt Ideal))

theorem ones_after0 : StableHlo.after hostOps0 W (Proc.devRef .tc main_v0) = val_main_v0 (F := Ideal) := by
  after_results_simp3; rfl
theorem one_after0 : StableHlo.after hostOps0 W (Proc.devRef .tc main_cst_1) = val_main_cst_1 (F := Ideal) := by
  after_results_simp3; rfl
theorem outdeg_after0 (h7 : W (Proc.devRef .tc main_arg7) = x7) :
    StableHlo.after hostOps0 W (Proc.devRef .tc main_v3) = val_main_v3 (F := Ideal) x7 := by
  after_results_simp3; simp only [h7, rec0]; rfl
theorem clamp_after1 (h1 : W (Proc.devRef .tc main_cst_1) = val_main_cst_1 (F := Ideal)) (h3 : W (Proc.devRef .tc main_v3) = val_main_v3 (F := Ideal) x7) :
    StableHlo.after hostOps0_1 W (Proc.devRef .tc main_v4) = val_main_v4 (F := Ideal) x7 := by
  after_results_simp3; simp only [cast_eq, id_eq, h1, h3]; rfl
theorem one_after2 : StableHlo.after hostOps0_2 W (Proc.devRef .tc main_cst_3) = val_main_cst_3 (F := Ideal) := by
  after_results_simp3; rfl
theorem indeg_after2 (h0 : W (Proc.devRef .tc main_v0) = val_main_v0 (F := Ideal)) (h8 : W (Proc.devRef .tc main_arg8) = x8) :
    StableHlo.after hostOps0_2 W (Proc.devRef .tc main_v7) = val_main_v7 (F := Ideal) x8 := by
  after_results_simp3; simp only [h0, h8, rec0]; rfl
theorem clamp_after3 (h1 : W (Proc.devRef .tc main_cst_3) = val_main_cst_3 (F := Ideal)) (h7 : W (Proc.devRef .tc main_v7) = val_main_v7 (F := Ideal) x8) :
    StableHlo.after hostOps0_3 W (Proc.devRef .tc main_v8) = val_main_v8 (F := Ideal) x8 := by
  after_results_simp3; simp only [cast_eq, id_eq, h1, h7]; rfl

theorem agg_after4 (h0 : W (Proc.devRef .tc main_arg0) = x0) (h7 : W (Proc.devRef .tc main_arg7) = x7) (h8 : W (Proc.devRef .tc main_arg8) = x8)
    (h4 : W (Proc.devRef .tc main_v4) = val_main_v4 (F := Ideal) x7) (h8' : W (Proc.devRef .tc main_v8) = val_main_v8 (F := Ideal) x8) :
    StableHlo.after hostOps0_4 W (Proc.devRef .tc main_v26) = val_main_v26 (F := Ideal) x0 x7 x8 := by
  after_results_simp3; simp only [h0, h7, h8, h4, h8', rec1, rec2]; rfl

theorem fusedW_after4 (h1 : W (Proc.devRef .tc main_arg1) = x1) (h3 : W (Proc.devRef .tc main_arg3) = x3) (h5 : W (Proc.devRef .tc main_arg5) = x5) :
    StableHlo.after hostOps0_4 W (Proc.devRef .tc main_v27) = Columns.fusedW x1 x3 x5 := by
  after_results_simp3; simp only [h1, h3, h5]; rfl

theorem fusedB_after4 (h2 : W (Proc.devRef .tc main_arg2) = x2) (h4 : W (Proc.devRef .tc main_arg4) = x4) (h6 : W (Proc.devRef .tc main_arg6) = x6) :
    StableHlo.after hostOps0_4 W (Proc.devRef .tc main_v29) = Columns.fusedB x2 x4 x6 := by
  after_results_simp3; simp only [h2, h4, h6]; rfl

variable (P : FVec Ideal S50000x384 .f32)

theorem keys_after5 (hP : W (Proc.devRef .tc main_v30) = P) (h7 : W (Proc.devRef .tc main_arg7) = x7) :
    StableHlo.after hostOps1 W (Proc.devRef .tc main_v43)
      = Host.gather Cert.ReferenceIdeal.gather_S50000x8x16_S1600000x1_S1600000x8x16_12_0_n_n_0_1_1816
          (shapeCast _ (extractStridedSlice S50000x128 ![0, 128] P slices_S50000x384_S50000x128_0_128) shapeCasts_S50000x128_S50000x8x16)
          (val_main_v82 (F := Ideal) x7) := by
  after_results_simp3; simp only [hP, h7, rec3]; rfl

theorem queries_after5 (hP : W (Proc.devRef .tc main_v30) = P) (h8 : W (Proc.devRef .tc main_arg8) = x8) :
    StableHlo.after hostOps1 W (Proc.devRef .tc main_v50)
      = Host.gather Cert.ReferenceIdeal.gather_S50000x8x16_S1600000x1_S1600000x8x16_12_0_n_n_0_1_1816
          (shapeCast _ (extractStridedSlice S50000x128 ![0, 0] P slices_S50000x384_S50000x128_0_0) shapeCasts_S50000x128_S50000x8x16)
          (val_main_v89 (F := Ideal) x8) := by
  after_results_simp3; simp only [hP, h8, rec3]; rfl

theorem values_after5 (hP : W (Proc.devRef .tc main_v30) = P) (h7 : W (Proc.devRef .tc main_arg7) = x7) :
    StableHlo.after hostOps1 W (Proc.devRef .tc main_v57)
      = Host.gather Cert.ReferenceIdeal.gather_S50000x8x16_S1600000x1_S1600000x8x16_12_0_n_n_0_1_1816
          (shapeCast _ (extractStridedSlice S50000x128 ![0, 256] P slices_S50000x384_S50000x128_0_256) shapeCasts_S50000x128_S50000x8x16)
          (val_main_v102 (F := Ideal) x7) := by
  after_results_simp3; simp only [hP, h7, rec3]; rfl

variable (U : FVec Ideal S1600000x8x16 .f32) (Z : FVec Ideal S1600000x8 .f32)

theorem weightedSum_after6 (hU : W (Proc.devRef .tc main_v58_1) = U) (h8 : W (Proc.devRef .tc main_arg8) = x8) :
    StableHlo.after hostOps2 W (Proc.devRef .tc main_v61)
      = Host.scatterAdd Cert.ReferenceIdeal.scatter_S50000x8x16_S1600000x1_S1600000x8x16_12_0_0_1 (val_main_v107 (F := Ideal)) (val_main_v108 (F := Ideal) x8) U := by
  after_results_simp3; simp only [hU, h8, rec4]; rfl

theorem scoreSum_after6 (hZ : W (Proc.devRef .tc main_v58_0) = Z) (h8 : W (Proc.devRef .tc main_arg8) = x8) :
    StableHlo.after hostOps2 W (Proc.devRef .tc main_v64)
      = Host.scatterAdd Cert.ReferenceIdeal.scatter_S50000x8_S1600000x1_S1600000x8_1_0_0_1 (val_main_v110 (F := Ideal)) (val_main_v111 (F := Ideal) x8) Z := by
  after_results_simp3; simp only [hZ, h8, rec5]; rfl

end Stretches

/-! ## The kernel's program followed from the launch memory, in the reference's stages -/

section Followed
variable (m : (ℓ : Loc nD τ sig) → Buf (Elt Ideal) ℓ) (c : Dev nD)

theorem at1 (r : Ref sig .tc) (h : r ∉ hostOps0_W) : B1 m c (Proc.devRef .tc r) = B0 m c (Proc.devRef .tc r) :=
  StableHlo.after_of_writes_sub hostOps0 _ hostOps0_writes h
theorem at2 (r : Ref sig .tc) (h : r ∉ hostOps0_1_W) : B2 m c (Proc.devRef .tc r) = B1 m c (Proc.devRef .tc r) :=
  StableHlo.after_of_writes_sub hostOps0_1 _ hostOps0_1_writes h
theorem at3 (r : Ref sig .tc) (h : r ∉ hostOps0_2_W) : B3 m c (Proc.devRef .tc r) = B2 m c (Proc.devRef .tc r) :=
  StableHlo.after_of_writes_sub hostOps0_2 _ hostOps0_2_writes h
theorem at4 (r : Ref sig .tc) (h : r ∉ hostOps0_3_W) : B4 m c (Proc.devRef .tc r) = B3 m c (Proc.devRef .tc r) :=
  StableHlo.after_of_writes_sub hostOps0_3 _ hostOps0_3_writes h
theorem at5 (r : Ref sig .tc) (h : r ∉ hostOps0_4_W) : B5 m c (Proc.devRef .tc r) = B4 m c (Proc.devRef .tc r) :=
  StableHlo.after_of_writes_sub hostOps0_4 _ hostOps0_4_writes h
theorem at7 (r : Ref sig .tc) (h : r ∉ hostOps1_W) : B7 m c (Proc.devRef .tc r) = B6 m c (Proc.devRef .tc r) :=
  StableHlo.after_of_writes_sub hostOps1 _ hostOps1_writes h

/-- An argument is as launched at the fourth boundary, -/
theorem arg_at4 (r : Ref sig .tc) (h0 : r ∉ hostOps0_W) (h1 : r ∉ hostOps0_1_W) (h2 : r ∉ hostOps0_2_W) (h3 : r ∉ hostOps0_3_W) :
    B4 m c (Proc.devRef .tc r) = m ((c : Thread nD τ).loc r) :=
  (at4 m c r h3).trans <| (at3 m c r h2).trans <| (at2 m c r h1).trans <| (at1 m c r h0).trans rfl
/-- at the sixth (after launch 0), -/
theorem arg_at6 (r : Ref sig .tc) (h0 : r ∉ hostOps0_W) (h1 : r ∉ hostOps0_1_W) (h2 : r ∉ hostOps0_2_W) (h3 : r ∉ hostOps0_3_W)
    (h4 : r ∉ hostOps0_4_W) (h5 : ∀ w, Pipeline.arrRef spec0 w ≠ r) : B6 m c (Proc.devRef .tc r) = m ((c : Thread nD τ).loc r) :=
  (B6_of_ne m c r h5).trans <| (at5 m c r h4).trans <| arg_at4 m c r h0 h1 h2 h3
/-- and at the eighth (after launch 1). -/
theorem arg_at8 (r : Ref sig .tc) (h0 : r ∉ hostOps0_W) (h1 : r ∉ hostOps0_1_W) (h2 : r ∉ hostOps0_2_W) (h3 : r ∉ hostOps0_3_W)
    (h4 : r ∉ hostOps0_4_W) (h5 : ∀ w, Pipeline.arrRef spec0 w ≠ r) (h6 : r ∉ hostOps1_W) (h7 : ∀ w, Pipeline.arrRef spec1 w ≠ r) :
    B8 m c (Proc.devRef .tc r) = m ((c : Thread nD τ).loc r) :=
  (B8_of_ne m c r h7).trans <| (at7 m c r h6).trans <| arg_at6 m c r h0 h1 h2 h3 h4 h5

/-- The out-degree count, clamped at one. -/
theorem outdeg_clamped : B2 m c (Proc.devRef .tc main_v4) = val_main_v4 (F := Ideal) (m ((c : Thread nD τ).loc main_arg7)) :=
  clamp_after1 _ (B1 m c) (one_after0 _) (outdeg_after0 _ (B0 m c) rfl)
/-- The in-degree count, clamped at one. -/
theorem indeg_clamped : B4 m c (Proc.devRef .tc main_v8) = val_main_v8 (F := Ideal) (m ((c : Thread nD τ).loc main_arg8)) :=
  clamp_after3 _ (B3 m c) (one_after2 _)
    (indeg_after2 _ (B2 m c) ((at2 m c main_v0 (by decide)).trans (ones_after0 _)) ((at2 m c main_arg8 (by decide)).trans ((at1 m c main_arg8 (by decide)).trans rfl)))
/-- The aggregated features launch 0 finds are the reference's. -/
theorem aggregated : B5 m c (Proc.devRef .tc main_v26) = val_main_v26 (F := Ideal) (m ((c : Thread nD τ).loc main_arg0)) (m ((c : Thread nD τ).loc main_arg7)) (m ((c : Thread nD τ).loc main_arg8)) :=
  agg_after4 _ _ _ (B4 m c) (arg_at4 m c main_arg0 (by decide) (by decide) (by decide) (by decide)) (arg_at4 m c main_arg7 (by decide) (by decide) (by decide) (by decide)) (arg_at4 m c main_arg8 (by decide) (by decide) (by decide) (by decide))
    ((at4 m c main_v4 (by decide)).trans ((at3 m c main_v4 (by decide)).trans (outdeg_clamped m c))) (indeg_clamped m c)
theorem fused_weight : B5 m c (Proc.devRef .tc main_v27) = Columns.fusedW (m ((c : Thread nD τ).loc main_arg1)) (m ((c : Thread nD τ).loc main_arg3)) (m ((c : Thread nD τ).loc main_arg5)) :=
  fusedW_after4 _ _ _ (B4 m c) (arg_at4 m c main_arg1 (by decide) (by decide) (by decide) (by decide)) (arg_at4 m c main_arg3 (by decide) (by decide) (by decide) (by decide)) (arg_at4 m c main_arg5 (by decide) (by decide) (by decide) (by decide))
theorem fused_bias : B5 m c (Proc.devRef .tc main_v29) = Columns.fusedB (m ((c : Thread nD τ).loc main_arg2)) (m ((c : Thread nD τ).loc main_arg4)) (m ((c : Thread nD τ).loc main_arg6)) :=
  fusedB_after4 _ _ _ (B4 m c) (arg_at4 m c main_arg2 (by decide) (by decide) (by decide) (by decide)) (arg_at4 m c main_arg4 (by decide) (by decide) (by decide) (by decide)) (arg_at4 m c main_arg6 (by decide) (by decide) (by decide) (by decide))

/-- After launch 0: the fused projection of the aggregated features. -/
theorem projected_all : B6 m c (Proc.devRef .tc main_v30)
    = Formulas.projected (val_main_v26 (F := Ideal) (m ((c : Thread nD τ).loc main_arg0)) (m ((c : Thread nD τ).loc main_arg7)) (m ((c : Thread nD τ).loc main_arg8))) (Columns.fusedW (m ((c : Thread nD τ).loc main_arg1)) (m ((c : Thread nD τ).loc main_arg3)) (m ((c : Thread nD τ).loc main_arg5))) (Columns.fusedB (m ((c : Thread nD τ).loc main_arg2)) (m ((c : Thread nD τ).loc main_arg4)) (m ((c : Thread nD τ).loc main_arg6))) := by
  refine (B6_arr m c 3).trans ((Values.nodeProj_array (E5 m) c).trans ?_)
  show Formulas.projected (B5 m c (Proc.devRef .tc main_v26)) (B5 m c (Proc.devRef .tc main_v27)) (B5 m c (Proc.devRef .tc main_v29)) = _
  rw [aggregated, fused_weight, fused_bias]

/-- The reference aggregates the same features three times over. -/
theorem aggregated_again₁ : val_main_v47 (F := Ideal) x0 x7 x8 = val_main_v26 (F := Ideal) x0 x7 x8 := rfl
theorem aggregated_again₂ : val_main_v68 (F := Ideal) x0 x7 x8 = val_main_v26 (F := Ideal) x0 x7 x8 := rfl

/-- The gathered keys, queries and values launch 1 finds are the reference's. -/
theorem keys : B7 m c (Proc.devRef .tc main_v43) = val_main_v83 (F := Ideal) (m ((c : Thread nD τ).loc main_arg0)) (m ((c : Thread nD τ).loc main_arg3)) (m ((c : Thread nD τ).loc main_arg4)) (m ((c : Thread nD τ).loc main_arg7)) (m ((c : Thread nD τ).loc main_arg8)) := by
  refine (keys_after5 _ (B6 m c) _ (projected_all m c) (arg_at6 m c main_arg7 (by decide) (by decide) (by decide) (by decide) (by decide) (by decide))).trans ?_
  rw [Columns.columns_k]
  unfold val_main_v83 val_main_v75
  rw [Cert.ReferenceIdeal.Stages.proj_k, aggregated_again₁]
theorem queries : B7 m c (Proc.devRef .tc main_v50) = val_main_v90 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (queries_after5 _ (B6 m c) _ (projected_all m c) (arg_at6 m c main_arg8 (by decide) (by decide) (by decide) (by decide) (by decide) (by decide))).trans ?_
  rw [Columns.columns_q]
  unfold val_main_v90 val_main_v74
  rw [Cert.ReferenceIdeal.Stages.proj_q]
theorem values : B7 m c (Proc.devRef .tc main_v57) = val_main_v103 (F := Ideal) (m ((c : Thread nD τ).loc main_arg0)) (m ((c : Thread nD τ).loc main_arg5)) (m ((c : Thread nD τ).loc main_arg6)) (m ((c : Thread nD τ).loc main_arg7)) (m ((c : Thread nD τ).loc main_arg8)) := by
  refine (values_after5 _ (B6 m c) _ (projected_all m c) (arg_at6 m c main_arg7 (by decide) (by decide) (by decide) (by decide) (by decide) (by decide))).trans ?_
  rw [Columns.columns_v]
  unfold val_main_v103 val_main_v76
  rw [Cert.ReferenceIdeal.Stages.proj_v, aggregated_again₂]

/-- After launch 1: the reference's scores and weighted values. -/
theorem scores : B8 m c (Proc.devRef .tc main_v58_0) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  refine (B8_arr m c 3).trans ((Values.edge_score_array (E7 m) c).trans ?_)
  show Formulas.score (B7 m c (Proc.devRef .tc main_v43)) (B7 m c (Proc.devRef .tc main_v50)) = _
  rw [keys, queries, Cert.ReferenceIdeal.Stages.score_stage]
theorem weighted_values : B8 m c (Proc.devRef .tc main_v58_1) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (B8_arr m c 4).trans ((Values.edge_weighted_array (E7 m) c).trans ?_)
  show Formulas.weighted (B7 m c (Proc.devRef .tc main_v43)) (B7 m c (Proc.devRef .tc main_v50)) (B7 m c (Proc.devRef .tc main_v57)) = _
  rw [keys, queries, values, Cert.ReferenceIdeal.Stages.weighted_stage]

/-- The two scatter sums launch 2 finds are the reference's. -/
theorem weighted_sum : B9 m c (Proc.devRef .tc main_v61) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  weightedSum_after6 _ (B8 m c) _ (weighted_values m c) (arg_at8 m c main_arg8 (by decide) (by decide) (by decide) (by decide) (by decide) (by decide) (by decide) (by decide))
theorem score_sum : B9 m c (Proc.devRef .tc main_v64) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  scoreSum_after6 _ (B8 m c) _ (scores m c) (arg_at8 m c main_arg8 (by decide) (by decide) (by decide) (by decide) (by decide) (by decide) (by decide) (by decide))

/-- THE RESULT: what the last launch's write-backs leave is the reference's result stage of the same arguments. -/
theorem result_stage : (dat2 (F := Ideal) (E9 m) c).arrAt 2 cfg2.N
    = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Values.normalize_array (E9 m) c).trans ?_
  show Formulas.normalized (B9 m c (Proc.devRef .tc main_v61)) (B9 m c (Proc.devRef .tc main_v64)) = _
  rw [weighted_sum, score_sum, Cert.ReferenceIdeal.Stages.normalized_stage]

end Followed

end Cert.KernelIdeal.Joined

end
-- ==== Proof.lean ====
/-
  The five claims. The word-level program and its idealization run to the end, fault nowhere and leave their
  arguments as launched: both are the same ten items (seven stretches of host operations around three launches), and
  the run follows the unscoped buffers' contents through them. The reference is host operations only: its run is read
  back operation by operation. The idealization rewrote nothing, so it preserves trivially. And on the extended reals
  the two results are one array: the kernel's aggregation, gathers and scatter sums are the reference's own
  operations, its three launches compute the projection, the edge scores and weighted values, and the normalisation in
  closed form, and the fused projection cut into column blocks is the reference's three projections.
-/
import proofs.«427591_j77103252898070_3_alg».proof.Defs
import proofs.«427591_j77103252898070_3_alg».proof.Proof.Gen.Kernel
import proofs.«427591_j77103252898070_3_alg».proof.Proof.Gen.KernelIdeal
import proofs.«427591_j77103252898070_3_alg».proof.Proof.Gen.ReferenceIdeal
import proofs.«427591_j77103252898070_3_alg».proof.Proof.Gen.ReferenceIdeal.Run
import proofs.«427591_j77103252898070_3_alg».proof.Proof.Gen.Pre_finite_inputs
import proofs.«427591_j77103252898070_3_alg».proof.Proof.KWholeRun
import proofs.«427591_j77103252898070_3_alg».proof.Proof.Joined
import Idealize.ShloMosaic.Adequacy
import Idealize.ShloMosaic.Init

noncomputable section

namespace Cert.Proof

open Idealize.ShloMosaic Idealize.SL.Sem

/-- The word-level program runs and keeps its arguments. -/
theorem frame_word : Cert.frame_Kernel := fun m ρ _ => Cert.Kernel.Whole.frame m ρ

/-- So does its idealization. -/
theorem frame_ideal : Cert.frame_KernelIdeal := fun m ρ _ => Cert.KernelIdeal.Whole.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel's last launch
    leaves the reference's result stage of the kernel's arguments, and the reference's run ends at that stage of its own. -/
theorem same_result : Cert.algebraic_KernelIdeal_ReferenceIdeal := by
  intro m ρ m' ρ' _ hagree
  refine ⟨fun c => (Cert.KernelIdeal.Gen.dat2 (F := Ideal) (Cert.KernelIdeal.Whole.E9 m) c).arrAt 2 Cert.KernelIdeal.cfg2.N,
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  refine Eq.trans ?_ (Cert.KernelIdeal.Joined.result_stage m c).symm
  rw [Cert.ReferenceIdeal.Read.val_main_v117_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_word, frame_ideal, frame_reference, trivial, same_result⟩

end Cert.Proof

end
